-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S_ : Shape := ⟨0, ![]⟩
abbrev S8x4096x8 : Shape := ⟨3, ![8, 4096, 8]⟩
abbrev S8x8x4096 : Shape := ⟨3, ![8, 8, 4096]⟩
abbrev S8x1x1 : Shape := ⟨3, ![8, 1, 1]⟩
abbrev S8x1x4096 : Shape := ⟨3, ![8, 1, 4096]⟩
abbrev S1x4096x8 : Shape := ⟨3, ![1, 4096, 8]⟩
abbrev S1x8x4096 : Shape := ⟨3, ![1, 8, 4096]⟩
abbrev S1x1x1 : Shape := ⟨3, ![1, 1, 1]⟩
abbrev S1x1x4096 : Shape := ⟨3, ![1, 1, 4096]⟩
abbrev S8x4096 : Shape := ⟨2, ![8, 4096]⟩
abbrev S4096 : Shape := ⟨1, ![4096]⟩
abbrev S1x4096 : Shape := ⟨2, ![1, 4096]⟩
abbrev S1x512x8 : Shape := ⟨3, ![1, 512, 8]⟩
abbrev S512x8 : Shape := ⟨2, ![512, 8]⟩
abbrev S512 : Shape := ⟨1, ![512]⟩
abbrev S512x1 : Shape := ⟨2, ![512, 1]⟩
abbrev S512x4096 : Shape := ⟨2, ![512, 4096]⟩
abbrev S64x8x4096 : Shape := ⟨3, ![64, 8, 4096]⟩
abbrev S1x512x1 : Shape := ⟨3, ![1, 512, 1]⟩
abbrev S1 : Shape := ⟨1, ![1]⟩

abbrev nBuf : Space → Nat
  | .hbm => 22
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S_, .i32⟩
  | .hbm, ⟨3, _⟩ => ⟨S_, .f32⟩
  | .hbm, ⟨4, _⟩ => ⟨S8x4096x8, .f32⟩
  | .hbm, ⟨5, _⟩ => ⟨S_, .i32⟩
  | .hbm, ⟨6, _⟩ => ⟨S_, .f32⟩
  | .hbm, ⟨7, _⟩ => ⟨S8x4096x8, .f32⟩
  | .hbm, ⟨8, _⟩ => ⟨S8x8x4096, .f32⟩
  | .hbm, ⟨9, _⟩ => ⟨S8x1x1, .f32⟩
  | .hbm, ⟨10, _⟩ => ⟨S8x1x4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x4096x8, .f32⟩
  | .local _ .vmem, ⟨1, _⟩ => ⟨S1x4096x8, .f32⟩
  | .local _ .vmem, ⟨2, _⟩ => ⟨S1x8x4096, .f32⟩
  | .local _ .vmem, ⟨3, _⟩ => ⟨S1x8x4096, .f32⟩
  | .local _ .vmem, ⟨4, _⟩ => ⟨S1x1x1, .f32⟩
  | .local _ .vmem, ⟨5, _⟩ => ⟨S1x1x1, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_call0_v0 : Ref sig .tc := ⟨.hbm, 3, rfl⟩
abbrev main_call0_v0 : Ref sig .tc := ⟨.hbm, 4, rfl⟩
abbrev main_call0_c_0 : Ref sig .tc := ⟨.hbm, 5, rfl⟩
abbrev main_call0_call1_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3_0 : Ref sig .tc := ⟨.hbm, 9, rfl⟩
abbrev main_call0_v3_1 : Ref sig .tc := ⟨.hbm, 10, rfl⟩
abbrev main_call0_cst : Ref sig .tc := ⟨.hbm, 11, rfl⟩
abbrev main_call0_v4 : Ref sig .tc := ⟨.hbm, 12, rfl⟩
abbrev main_call0_cst_1 : Ref sig .tc := ⟨.hbm, 13, rfl⟩
abbrev main_call0_v5 : Ref sig .tc := ⟨.hbm, 14, rfl⟩
abbrev main_call0_cst_2 : Ref sig .tc := ⟨.hbm, 15, rfl⟩
abbrev main_call0_v6 : Ref sig .tc := ⟨.hbm, 16, rfl⟩
abbrev main_call0_cst_3 : Ref sig .tc := ⟨.hbm, 17, rfl⟩
abbrev main_call0_v7 : Ref sig .tc := ⟨.hbm, 18, rfl⟩
abbrev main_call0_cst_4 : Ref sig .tc := ⟨.hbm, 19, rfl⟩
abbrev main_call0_v8 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S8x4096x3_S8x4096x8_000_000_050 : S8x4096x3.Pads (![0, 0, 0] : Fin 3 → Nat) ![0, 0, 5] ![0, 0, 0] S8x4096x8
  h_S_ : 0 < S_.numel
  transposes_S8x4096x8_S8x8x4096_0_2_1 : S8x4096x8.Transposes [0, 2, 1] S8x8x4096
  reducesTo_S8x1x1_S_d0_1_2 : S8x1x1.ReducesTo [0, 1, 2] S_
  reducesTo_S8x1x4096_S_d0_1_2 : S8x1x4096.ReducesTo [0, 1, 2] S_
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  reduces_S8x4096_S4096 : S8x4096.Reduces [0] S4096
  shapeCasts_S4096_S1x4096 : S4096.ShapeCasts S1x4096
  inb_S1x4096x8_S1x512x8_0_0_0 : ∀ a, (![0, 0, 0] : Fin 3 → Nat) a + S1x512x8.size a ≤ S1x4096x8.size a
  h_S1x512x8 : 0 < S1x512x8.numel
  shapeCasts_S1x512x8_S512x8 : S1x512x8.ShapeCasts S512x8
  reduces_S512x8_S512 : S512x8.Reduces [1] S512
  shapeCasts_S512_S512x1 : S512.ShapeCasts S512x1
  broadcasts_S1x4096_S512x4096 : S1x4096.Broadcasts S512x4096
  reduces_S512x4096_S512 : S512x4096.Reduces [1] S512
  broadcasts_S512x1_S512x4096 : S512x1.Broadcasts S512x4096
  shapeCasts_S512x4096_S64x8x4096 : S512x4096.ShapeCasts S64x8x4096
  reduces_S64x8x4096_S8x4096 : S64x8x4096.Reduces [0] S8x4096
  inb_S1x4096x8_S1x512x8_0_512_0 : ∀ a, (![0, 512, 0] : Fin 3 → Nat) a + S1x512x8.size a ≤ S1x4096x8.size a
  inb_S1x4096x8_S1x512x8_0_1024_0 : ∀ a, (![0, 1024, 0] : Fin 3 → Nat) a + S1x512x8.size a ≤ S1x4096x8.size a
  inb_S1x4096x8_S1x512x8_0_1536_0 : ∀ a, (![0, 1536, 0] : Fin 3 → Nat) a + S1x512x8.size a ≤ S1x4096x8.size a
  inb_S1x4096x8_S1x512x8_0_2048_0 : ∀ a, (![0, 2048, 0] : Fin 3 → Nat) a + S1x512x8.size a ≤ S1x4096x8.size a
  inb_S1x4096x8_S1x512x8_0_2560_0 : ∀ a, (![0, 2560, 0] : Fin 3 → Nat) a + S1x512x8.size a ≤ S1x4096x8.size a
  inb_S1x4096x8_S1x512x8_0_3072_0 : ∀ a, (![0, 3072, 0] : Fin 3 → Nat) a + S1x512x8.size a ≤ S1x4096x8.size a
  inb_S1x4096x8_S1x512x8_0_3584_0 : ∀ a, (![0, 3584, 0] : Fin 3 → Nat) a + S1x512x8.size a ≤ S1x4096x8.size a
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  dot_S512x8_S8x4096_S512x4096_1_0_0_1_n_n_wf : DotDims.WF S512x8 S8x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x8.size a ≤ S8x4096x8.size a
  hwx0_0 : ∀ i : grid0.Coords, EltTy.bits .f32 = 32 ∨ (Rect.block (s := S8x4096x8) S1x4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x4096.size a ≤ S8x8x4096.size a
  hwx0_1 : ∀ i : grid0.Coords, EltTy.bits .f32 = 32 ∨ (Rect.block (s := S8x8x4096) S1x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S512x8_S8x4096_S512x4096_1_0_0_1_n_n : DotDims S512x8 S8x4096 S512x4096 where
  lhsContracting := [1]
  rhsContracting := [0]
  lhsNonContracting := [0]
  rhsNonContracting := [1]
  lhsBatch := []
  rhsBatch := []
  wf := dot_S512x8_S8x4096_S512x4096_1_0_0_1_n_n_wf

abbrev win0_0 : Pipeline.Window sig grid0 :=
  Pipeline.Window.ofSpec (Memref.whole main_call0_v0) S1x4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S1x8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S8 : Shape := ⟨1, ![8]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x1x4096, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x4096x3, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x3, .f32⟩
  | .hbm, ⟨37, _⟩ => ⟨S_, .f32⟩
  | .hbm, ⟨38, _⟩ => ⟨S8x4096, .f32⟩
  | .hbm, ⟨39, _⟩ => ⟨S8x1x4096, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S_, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S_, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_10 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_v35 : Ref sig .tc := ⟨.hbm, 50, rfl⟩
abbrev main_cst_12 : Ref sig .tc := ⟨.hbm, 51, rfl⟩
abbrev main_v36 : Ref sig .tc := ⟨.hbm, 52, rfl⟩
abbrev main_cst_13 : Ref sig .tc := ⟨.hbm, 53, rfl⟩
abbrev main_v37 : Ref sig .tc := ⟨.hbm, 54, rfl⟩
abbrev main_cst_14 : Ref sig .tc := ⟨.hbm, 55, rfl⟩
abbrev main_v38 : Ref sig .tc := ⟨.hbm, 56, rfl⟩
abbrev main_v39 : Ref sig .tc := ⟨.hbm, 57, rfl⟩
abbrev main_cst_15 : Ref sig .tc := ⟨.hbm, 58, rfl⟩
abbrev main_v40 : Ref sig .tc := ⟨.hbm, 59, rfl⟩
abbrev main_cst_16 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Tile.lean ====
/-
  One tile of the kernel: 512 staged points xa[r,k] (k the padded coordinate) against all 4096 staged points yb[k,m]
  of the other cloud, read index by index on the extended reals.
    tSq  xa      (r, 0) = Σ_k xa[r,k]²                                  (a row's squared norm)
    ySq  yb      (0, m) = Σ_k yb[k,m]²                                  (a column's squared norm)
    tMat xa yb   (r, m) = Σ_k (xa[r,k] · (−2)) · yb[k,m]                (the scaled product)
    tRow xa yb y2 (r, 0) = (inf_m (tMat (r,m) + y2 (0,m))) + tSq (r,0)  (the row minimum, then the row's norm)
    tCol xa yb   (s, m) = inf_{q<64} (tMat (8q+s, m) + tSq (8q+s, 0))   (rows folded eight apart)
  A minimum-reduction from +∞ over one axis is the infimum over that axis's coordinates.
-/
import proofs.«144117_g43800076485249_cont_8to1_b_1262_21_alg».proof.Proof.Gen.KernelIdeal
import Idealize.ShloMosaic.Lib.ValueIdx
import Idealize.ShloMosaic.Lib.ValueIdxCoords
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen

/-- The kernel's scale factor is −2. -/
theorem ofBits_neg_two : Ideal.ofBits .f32 0xC0000000#32 = ((-2 : ℝ) : EReal) := by
  simp [Ideal.ofBits, Ideal.ieee, -EReal.coe_mul]; norm_num
/-- The minimum-reductions start from +∞. -/
theorem ofBits_pos_inf : Ideal.ofBits .f32 0x7F800000#32 = (⊤ : EReal) := by
  simp [Ideal.ofBits, Ideal.ieee]

/-- A row's squared norm, kept as a column. -/
def tSq (xa : FVec Ideal S512x8 .f32) : FVec Ideal S512x1 .f32 :=
  shapeCast S512x1 (multiReduction .add [1] S512 (mulf xa xa) 0x00000000#32 reduces_S512x8_S512 (.inl rfl) rfl) shapeCasts_S512_S512x1
/-- A column's squared norm, kept as a row. -/
def ySq (yb : FVec Ideal S8x4096 .f32) : FVec Ideal S1x4096 .f32 :=
  shapeCast S1x4096 (multiReduction .add [0] S4096 (mulf yb yb) 0x00000000#32 reduces_S8x4096_S4096 (.inl rfl) rfl) shapeCasts_S4096_S1x4096
/-- The scaled matrix product. -/
def tMat (xa : FVec Ideal S512x8 .f32) (yb : FVec Ideal S8x4096 .f32) : FVec Ideal S512x4096 .f32 :=
  matmul dot_S512x8_S8x4096_S512x4096_1_0_0_1_n_n none (mulf xa (broadcast S512x8 (Scalar.ofBits .f32 0xC0000000#32))) yb (constant S512x4096 .f32 0x00000000#32)
/-- Each row's minimum over the columns of product plus column norm, then the row's own norm added. -/
def tRow (xa : FVec Ideal S512x8 .f32) (yb : FVec Ideal S8x4096 .f32) (y2 : FVec Ideal S1x4096 .f32) : FVec Ideal S512x1 .f32 :=
  addf (shapeCast S512x1 (multiReduction .minimumf [1] S512 (addf (tMat xa yb) (broadcastTo S512x4096 y2 broadcasts_S1x4096_S512x4096)) 0x7F800000#32 reduces_S512x4096_S512 (.inl rfl) rfl) shapeCasts_S512_S512x1) (tSq xa)
/-- Product plus row norm, minimised over the rows eight apart. -/
def tCol (xa : FVec Ideal S512x8 .f32) (yb : FVec Ideal S8x4096 .f32) : FVec Ideal S8x4096 .f32 :=
  multiReduction .minimumf [0] S8x4096 (shapeCast S64x8x4096 (addf (tMat xa yb) (broadcastTo S512x4096 (tSq xa) broadcasts_S512x1_S512x4096)) shapeCasts_S512x4096_S64x8x4096) 0x7F800000#32 reduces_S64x8x4096_S8x4096 (.inl rfl) rfl

/-- A minimum-reduction over one axis is the fold of `min`, from the start value, over that axis's coordinates. -/
private theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The fold of `min` from +∞ is the infimum. -/
private theorem fold_min_top {n : Nat} (f : Fin n → EReal) :
    (Finset.univ : Finset (Fin n)).fold min (⊤ : EReal) f = Finset.univ.inf f := rfl

/-- The product's operand indices, axis by axis: at output index (r, m) and contraction coordinate k they are (r, k) and (k, m). -/
private theorem lhs_0 (i : S512x4096.Idx) (q : dot_S512x8_S8x4096_S512x4096_1_0_0_1_n_n.contr.Idx) :
    (dot_S512x8_S8x4096_S512x4096_1_0_0_1_n_n.lhsIdx i q 0).val = (i 0).val := by
  unfold DotDims.lhsIdx
  rw [dif_neg (show ¬(0 : Fin S512x8.rank) ∈ dot_S512x8_S8x4096_S512x4096_1_0_0_1_n_n.lhsBatch by decide), dif_pos (show (0 : Fin S512x8.rank) ∈ dot_S512x8_S8x4096_S512x4096_1_0_0_1_n_n.lhsNonContracting by decide)]
  rfl
private theorem lhs_1 (i : S512x4096.Idx) (q : dot_S512x8_S8x4096_S512x4096_1_0_0_1_n_n.contr.Idx) :
    (dot_S512x8_S8x4096_S512x4096_1_0_0_1_n_n.lhsIdx i q 1).val = (q ⟨0, by decide⟩).val :=
  dot_S512x8_S8x4096_S512x4096_1_0_0_1_n_n.lhsIdx_val_of_single rfl i q
private theorem rhs_0 (i : S512x4096.Idx) (q : dot_S512x8_S8x4096_S512x4096_1_0_0_1_n_n.contr.Idx) :
    (dot_S512x8_S8x4096_S512x4096_1_0_0_1_n_n.rhsIdx i q 0).val = (q ⟨0, by decide⟩).val :=
  dot_S512x8_S8x4096_S512x4096_1_0_0_1_n_n.rhsIdx_val_of_single rfl i q
private theorem rhs_1 (i : S512x4096.Idx) (q : dot_S512x8_S8x4096_S512x4096_1_0_0_1_n_n.contr.Idx) :
    (dot_S512x8_S8x4096_S512x4096_1_0_0_1_n_n.rhsIdx i q 1).val = (i 1).val := by
  unfold DotDims.rhsIdx
  rw [dif_neg (show ¬(1 : Fin S8x4096.rank) ∈ dot_S512x8_S8x4096_S512x4096_1_0_0_1_n_n.rhsBatch by decide), dif_pos (show (1 : Fin S8x4096.rank) ∈ dot_S512x8_S8x4096_S512x4096_1_0_0_1_n_n.rhsNonContracting by decide)]
  rfl

theorem tSq_apply (xa : FVec Ideal S512x8 .f32) (r : Fin 512) :
    tSq xa (ix2 r 0) = ∑ k : Fin 8, xa (ix2 r k) * xa (ix2 r k) := by
  unfold tSq
  refine (shapeCast_apply _ shapeCasts_S512_S512x1 (ix2 r 0) (ix1 r) ?_).trans ?_
  · rw [Shape.rowMajor_val_two, Shape.rowMajor_val_one]; show r.val = r.val * 1 + 0; omega
  · refine (Ideal.multiReduction_add_single _ _ _ _ _ _).trans ?_
    refine Finset.sum_congr rfl fun k _ => ?_
    have e : reduces_S512x8_S512.lift (ix1 r) k = ix2 r k := by
      funext a; match a with | ⟨0,_⟩ => rfl | ⟨1,_⟩ => rfl
    rw [e]; rfl
theorem ySq_apply (yb : FVec Ideal S8x4096 .f32) (m : Fin 4096) :
    ySq yb (ix2 0 m) = ∑ k : Fin 8, yb (ix2 k m) * yb (ix2 k m) := by
  unfold ySq
  refine (shapeCast_apply _ shapeCasts_S4096_S1x4096 (ix2 0 m) (ix1 m) ?_).trans ?_
  · rw [Shape.rowMajor_val_two, Shape.rowMajor_val_one]; show m.val = 0 * 4096 + m.val; omega
  · refine (Ideal.multiReduction_add_single _ _ _ _ _ _).trans ?_
    refine Finset.sum_congr rfl fun k _ => ?_
    have e : reduces_S8x4096_S4096.lift (ix1 m) k = ix2 k m := by
      funext a; match a with | ⟨0,_⟩ => rfl | ⟨1,_⟩ => rfl
    rw [e]; rfl
theorem tMat_apply (xa : FVec Ideal S512x8 .f32) (yb : FVec Ideal S8x4096 .f32) (r : Fin 512) (m : Fin 4096) :
    tMat xa yb (ix2 r m) = ∑ k : Fin 8, (xa (ix2 r k) * ((-2 : ℝ) : EReal)) * yb (ix2 k m) := by
  unfold tMat
  simp only [matmul]
  rw [Ideal.matmul_constant_zero_apply, ← Equiv.sum_comp (contrEquiv1 dot_S512x8_S8x4096_S512x4096_1_0_0_1_n_n 8 rfl rfl).symm]
  refine Finset.sum_congr rfl fun k _ => ?_
  have hk := contrEquiv1_symm_val dot_S512x8_S8x4096_S512x4096_1_0_0_1_n_n 8 rfl rfl k
  have el : dot_S512x8_S8x4096_S512x4096_1_0_0_1_n_n.lhsIdx (ix2 r m) ((contrEquiv1 dot_S512x8_S8x4096_S512x4096_1_0_0_1_n_n 8 rfl rfl).symm k) = ix2 r k := funext fun a => Fin.ext (by
    match a with
    | ⟨0, _⟩ => exact lhs_0 _ _
    | ⟨1, _⟩ => exact (lhs_1 _ _).trans hk)
  have er : dot_S512x8_S8x4096_S512x4096_1_0_0_1_n_n.rhsIdx (ix2 r m) ((contrEquiv1 dot_S512x8_S8x4096_S512x4096_1_0_0_1_n_n 8 rfl rfl).symm k) = ix2 k m := funext fun a => Fin.ext (by
    match a with
    | ⟨0, _⟩ => exact (rhs_0 _ _).trans hk
    | ⟨1, _⟩ => exact rhs_1 _ _)
  rw [el, er]
  show (xa (ix2 r k) * Ideal.ofBits .f32 0xC0000000#32) * yb (ix2 k m) = _
  rw [ofBits_neg_two]
theorem tRow_apply (xa : FVec Ideal S512x8 .f32) (yb : FVec Ideal S8x4096 .f32) (y2 : FVec Ideal S1x4096 .f32) (r : Fin 512) :
    tRow xa yb y2 (ix2 r 0) = (Finset.univ.inf fun m : Fin 4096 => tMat xa yb (ix2 r m) + y2 (ix2 0 m)) + tSq xa (ix2 r 0) := by
  unfold tRow
  rw [addf_apply]
  refine congrArg (· + tSq xa (ix2 r 0)) ?_
  refine (shapeCast_apply _ shapeCasts_S512_S512x1 (ix2 r 0) (ix1 r) ?_).trans ?_
  · rw [Shape.rowMajor_val_two, Shape.rowMajor_val_one]; show r.val = r.val * 1 + 0; omega
  · refine (multiReduction_minimumf_single _ _ _ _ _ _).trans ?_
    show (Finset.univ : Finset (Fin 4096)).fold min (Ideal.ofBits .f32 0x7F800000#32) _ = _
    rw [ofBits_pos_inf]
    refine (fold_min_top _).trans ?_
    refine congrArg (Finset.univ.inf) (funext fun (m : Fin 4096) => ?_)
    have e : reduces_S512x4096_S512.lift (ix1 r) m = ix2 r m := by
      funext a; match a with | ⟨0,_⟩ => rfl | ⟨1,_⟩ => rfl
    show addf (tMat xa yb) (broadcastTo S512x4096 y2 broadcasts_S1x4096_S512x4096) (reduces_S512x4096_S512.lift (ix1 r) m) = _
    rw [e, addf_apply]
    refine congrArg (tMat xa yb (ix2 r m) + ·) ?_
    exact broadcastTo_1b_ab_apply y2 _ r m
theorem tCol_apply (xa : FVec Ideal S512x8 .f32) (yb : FVec Ideal S8x4096 .f32) (s : Fin 8) (m : Fin 4096) :
    tCol xa yb (ix2 s m) = Finset.univ.inf fun q : Fin 64 =>
      tMat xa yb (ix2 (⟨q.val * 8 + s.val, by omega⟩ : Fin 512) m) + tSq xa (ix2 (⟨q.val * 8 + s.val, by omega⟩ : Fin 512) 0) := by
  unfold tCol
  refine (multiReduction_minimumf_single _ _ _ _ _ _).trans ?_
  show (Finset.univ : Finset (Fin 64)).fold min (Ideal.ofBits .f32 0x7F800000#32) _ = _
  rw [ofBits_pos_inf]
  refine (fold_min_top _).trans ?_
  refine congrArg (Finset.univ.inf) (funext fun (q : Fin 64) => ?_)
  have e : reduces_S64x8x4096_S8x4096.lift (ix2 s m) q = ix3 q s m := by
    funext a; match a with | ⟨0,_⟩ => rfl | ⟨1,_⟩ => rfl | ⟨2,_⟩ => rfl
  show shapeCast S64x8x4096 (addf (tMat xa yb) (broadcastTo S512x4096 (tSq xa) broadcasts_S512x1_S512x4096)) shapeCasts_S512x4096_S64x8x4096
      (reduces_S64x8x4096_S8x4096.lift (ix2 s m) q) = _
  rw [e]
  refine (shapeCast_apply _ shapeCasts_S512x4096_S64x8x4096 (ix3 q s m) (ix2 (⟨q.val * 8 + s.val, by omega⟩ : Fin 512) m) ?_).trans ?_
  · rw [Shape.rowMajor_val_two, Shape.rowMajor_val_three]
    show (q.val * 8 + s.val) * 4096 + m.val = (q.val * 8 + s.val) * 4096 + m.val
    rfl
  · rw [addf_apply]
    refine congrArg (tMat xa yb (ix2 (⟨q.val * 8 + s.val, by omega⟩ : Fin 512) m) + ·) ?_
    refine broadcastTo_apply (tSq xa) broadcasts_S512x1_S512x4096 _ (ix2 (⟨q.val * 8 + s.val, by omega⟩ : Fin 512) 0) fun ax => ?_
    match ax with
    | ⟨0, _⟩ => show q.val * 8 + s.val = if (512 : Nat) = 1 then 0 else q.val * 8 + s.val; rw [if_neg (by decide)]
    | ⟨1, _⟩ => show 0 = if (1 : Nat) = 1 then 0 else m.val; rw [if_pos rfl]

end Cert.KernelIdeal.Tile

end
-- ==== Proof.Spec.lean ====
/-
  The mathematics both programs compute, with no program in sight: two clouds of 4096 points in ℝ³ per batch entry
  (8 entries), as extended-real arrays indexed (entry, point, coordinate).

  REFERENCE SIDE.  For points p = x[b,n,·], q = y[b,m,·] the clamped squared distance is
      dist = max (|p|² + |q|² − 2·⟨p,q⟩) 0,
  the nearest-neighbour distance of p is the infimum over m, one direction of the chamfer distance is the mean over
  n and then over b (each mean a sum divided by the count), and the result is the larger of the two directions.

  KERNEL SIDE.  One distance matrix serves both directions: with s[n,m] = Σ_d (p_d · (−2)) · q_d,
      row term  (n) = max ((inf_m (s[n,m] + |q_m|²)) + |p_n|²) 0,
      column term (m) = max ((inf_n (s[n,m] + |p_n|²)) + |q_m|²) 0,
  the row terms summed over n and b and divided by 8 and then by 4096, the column terms summed over b and m and
  divided by 32768.  Adding a finite constant and clamping at 0 are monotone, so they commute with an infimum;
  on finite entries (−2)·Σ = Σ (−2)·, and 32768 = 8 · 4096: the two values agree.

  A block of the kernel holds one entry's points with the coordinate axis padded from 3 to 8 by zeros (and, for the
  second cloud, transposed); sums over the 8 padded coordinates are sums over the 3 real ones.
-/
import Idealize.ShloMosaic.PureOps.Ideal
import Idealize.ShloMosaic.Lib.ValueIdx
import Idealize.ShloMosaic.Lib.ValueIdxCoords

noncomputable section

open scoped BigOperators

namespace Cert.Chamfer

open Idealize.ShloMosaic Idealize.ShloMosaic.ValueIdx

/-- A batch of point clouds: (entry, point, coordinate). -/
abbrev Cloud := (⟨3, ![8, 4096, 3]⟩ : Shape).Idx → EReal
/-- One entry of the first cloud as the kernel stages it: (0, point, padded coordinate). -/
abbrev XBlock := (⟨3, ![1, 4096, 8]⟩ : Shape).Idx → EReal
/-- One entry of the second cloud as the kernel stages it, transposed: (0, padded coordinate, point). -/
abbrev YBlock := (⟨3, ![1, 8, 4096]⟩ : Shape).Idx → EReal

/-- Every entry is a real number. -/
def Finite (x : Cloud) : Prop := ∀ i, ∃ r : ℝ, x i = (r : EReal)

/-! ## The reference's value -/

/-- |x[b,n,·]|². -/
def sqn (x : Cloud) (b : Fin 8) (n : Fin 4096) : EReal := ∑ d : Fin 3, x (ix3 b n d) * x (ix3 b n d)
/-- ⟨x[b,n,·], y[b,m,·]⟩. -/
def inner (x y : Cloud) (b : Fin 8) (n m : Fin 4096) : EReal := ∑ d : Fin 3, x (ix3 b n d) * y (ix3 b m d)
/-- The clamped squared distance, in the reference's order of operations. -/
def dist (x y : Cloud) (b : Fin 8) (n m : Fin 4096) : EReal :=
  max ((sqn x b n + sqn y b m) - ((2 : ℝ) : EReal) * inner x y b n m) 0
/-- The squared distance from x[b,n,·] to its nearest neighbour in y[b,·,·]. -/
def nearest (x y : Cloud) (b : Fin 8) (n : Fin 4096) : EReal := Finset.univ.inf fun m : Fin 4096 => dist x y b n m
/-- One direction: the mean over points, then over entries. -/
def oneway (x y : Cloud) : EReal :=
  Ideal.div (∑ b : Fin 8, Ideal.div (∑ n : Fin 4096, nearest x y b n) ((4096 : ℝ) : EReal)) ((8 : ℝ) : EReal)
/-- The symmetric distance: the larger direction. -/
def chamfer (x y : Cloud) : EReal := max (oneway x y) (oneway y x)

/-! ## The kernel's value -/

/-- Σ_d (x[b,n,d] · (−2)) · y[b,m,d]: the kernel's matrix product of the scaled first cloud with the second. -/
def scaled (x y : Cloud) (b : Fin 8) (n m : Fin 4096) : EReal :=
  ∑ d : Fin 3, (x (ix3 b n d) * ((-2 : ℝ) : EReal)) * y (ix3 b m d)
/-- The clamped nearest-neighbour distance of x[b,n,·], as the kernel forms it. -/
def rowTerm (x y : Cloud) (b : Fin 8) (n : Fin 4096) : EReal :=
  max ((Finset.univ.inf fun m : Fin 4096 => scaled x y b n m + sqn y b m) + sqn x b n) 0
/-- The clamped nearest-neighbour distance of y[b,m,·], from the same matrix. -/
def colTerm (x y : Cloud) (b : Fin 8) (m : Fin 4096) : EReal :=
  max ((Finset.univ.inf fun n : Fin 4096 => scaled x y b n m + sqn x b n) + sqn y b m) 0
/-- What the host operations after the kernel make of its two result arrays: R b the row sums, C b m the column terms. -/
def tailValue (R : Fin 8 → EReal) (C : Fin 8 → Fin 4096 → EReal) : EReal :=
  max (Ideal.div (Ideal.div (∑ b : Fin 8, R b) ((8 : ℝ) : EReal)) ((4096 : ℝ) : EReal))
    (Ideal.div (∑ b : Fin 8, ∑ m : Fin 4096, C b m) ((32768 : ℝ) : EReal))
/-- The kernel program's result. -/
def kernelValue (x y : Cloud) : EReal :=
  tailValue (fun b => ∑ n : Fin 4096, rowTerm x y b n) (fun b m => colTerm x y b m)

/-! ## One block of the kernel -/

/-- |u[0,n,·]|² over the 8 padded coordinates. -/
def bsqX (u : XBlock) (n : Fin 4096) : EReal := ∑ k : Fin 8, u (ix3 0 n k) * u (ix3 0 n k)
/-- |v[0,·,m]|² over the 8 padded coordinates. -/
def bsqY (v : YBlock) (m : Fin 4096) : EReal := ∑ k : Fin 8, v (ix3 0 k m) * v (ix3 0 k m)
/-- The block's scaled matrix product at (n, m). -/
def bscaled (u : XBlock) (v : YBlock) (n m : Fin 4096) : EReal :=
  ∑ k : Fin 8, (u (ix3 0 n k) * ((-2 : ℝ) : EReal)) * v (ix3 0 k m)
/-- The sum over the block's rows of their clamped row minima: what a grid point writes to the first result. -/
def blockRowSum (u : XBlock) (v : YBlock) : EReal :=
  ∑ n : Fin 4096, max ((Finset.univ.inf fun m : Fin 4096 => bscaled u v n m + bsqY v m) + bsqX u n) 0
/-- The clamped column minimum at column m: what a grid point writes to the second result. -/
def blockCol (u : XBlock) (v : YBlock) (m : Fin 4096) : EReal :=
  max ((Finset.univ.inf fun n : Fin 4096 => bscaled u v n m + bsqX u n) + bsqY v m) 0

/-- Entry b of the first cloud, its coordinate axis padded to 8 by zeros. -/
def padX (x : Cloud) (b : Fin 8) : XBlock :=
  fun i => if h : (i 2).val < 3 then x (ix3 b (i 1) ⟨(i 2).val, h⟩) else 0
/-- Entry b of the second cloud, padded likewise and transposed. -/
def padYT (y : Cloud) (b : Fin 8) : YBlock :=
  fun i => if h : (i 1).val < 3 then y (ix3 b (i 2) ⟨(i 1).val, h⟩) else 0

end Cert.Chamfer

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.BodyRow.lean ====
/-
  What one grid point writes to the first result: the sum, over the block's 4096 rows taken as eight tiles of 512, of
  each row's clamped minimum.  The kernel keeps a running column of 512 partial sums, one per row position within a tile,
  and adds the eight tiles' clamped row minima into it in turn; the final total over the 512 positions is the sum over all
  4096 rows, sums of extended reals being commutative and associative.
-/
import proofs.«144117_g43800076485249_cont_8to1_b_1262_21_alg».proof.Proof.Gen.KernelIdeal.Frame
import proofs.«144117_g43800076485249_cont_8to1_b_1262_21_alg».proof.Proof.Tile
import proofs.«144117_g43800076485249_cont_8to1_b_1262_21_alg».proof.Proof.Spec
import proofs.«144117_g43800076485249_cont_8to1_b_1262_21_alg».proof.Proof.LibSumBlocks

noncomputable section

open scoped BigOperators

namespace Cert.KernelIdeal.BodyValue

open Idealize.ShloMosaic Idealize.ShloMosaic.ValueIdx Cert.KernelIdeal Cert.KernelIdeal.Gen

/-! ## The payloads as compositions of the tile functions -/

/-- The zero column the kernel clamps against. -/
private abbrev Z : FVec Ideal S512x1 .f32 := broadcast S512x1 (Scalar.ofBits .f32 0x00000000#32)

private theorem pay14_eq : k0_pay14 (F := Ideal) = Z := rfl
private theorem pay24_eq : k0_pay24 (F := Ideal) = Z := rfl
private theorem pay34_eq : k0_pay34 (F := Ideal) = Z := rfl
private theorem pay44_eq : k0_pay44 (F := Ideal) = Z := rfl

private theorem pay4_eq (v0 : Vec Ideal S1x8x4096 .f32) : k0_pay4 v0 = Tile.ySq (k0_pay3 v0) := rfl

private theorem pay8_eq (v0 : Vec Ideal S1x8x4096 .f32) (v5 : Vec Ideal S1x512x8 .f32) :
    k0_pay8 v0 v5 = maximumf (Tile.tRow (k0_pay5 v5) (k0_pay3 v0) (k0_pay4 v0)) Z := rfl

private theorem pay13_eq (v0 : Vec Ideal S1x8x4096 .f32) (v24 : Vec Ideal S1x512x8 .f32) :
    k0_pay13 v0 v24 = Tile.tRow (k0_pay10 v24) (k0_pay3 v0) (k0_pay4 v0) := rfl

private theorem pay18_eq (v1 : FVec Ideal S8x4096 .f32) (v4 : FVec Ideal S1x4096 .f32) (v19 v36 v37 : FVec Ideal S512x1 .f32)
    (v45 : Vec Ideal S1x512x8 .f32) :
    k0_pay18 v1 v4 v19 v36 v37 v45 = addf (addf v19 (maximumf v36 v37)) (maximumf (Tile.tRow (k0_pay15 v45) v1 v4) Z) := rfl

private theorem pay23_eq (v1 : FVec Ideal S8x4096 .f32) (v4 : FVec Ideal S1x4096 .f32) (v66 : Vec Ideal S1x512x8 .f32) :
    k0_pay23 v1 v4 v66 = Tile.tRow (k0_pay20 v66) v1 v4 := rfl

private theorem pay28_eq (v1 : FVec Ideal S8x4096 .f32) (v4 : FVec Ideal S1x4096 .f32) (v60 v78 v79 : FVec Ideal S512x1 .f32)
    (v87 : Vec Ideal S1x512x8 .f32) :
    k0_pay28 v1 v4 v60 v78 v79 v87 = addf (addf v60 (maximumf v78 v79)) (maximumf (Tile.tRow (k0_pay25 v87) v1 v4) Z) := rfl

private theorem pay33_eq (v1 : FVec Ideal S8x4096 .f32) (v4 : FVec Ideal S1x4096 .f32) (v108 : Vec Ideal S1x512x8 .f32) :
    k0_pay33 v1 v4 v108 = Tile.tRow (k0_pay30 v108) v1 v4 := rfl

private theorem pay38_eq (v1 : FVec Ideal S8x4096 .f32) (v4 : FVec Ideal S1x4096 .f32) (v102 v120 v121 : FVec Ideal S512x1 .f32)
    (v129 : Vec Ideal S1x512x8 .f32) :
    k0_pay38 v1 v4 v102 v120 v121 v129 = addf (addf v102 (maximumf v120 v121)) (maximumf (Tile.tRow (k0_pay35 v129) v1 v4) Z) := rfl

private theorem pay43_eq (v1 : FVec Ideal S8x4096 .f32) (v4 : FVec Ideal S1x4096 .f32) (v150 : Vec Ideal S1x512x8 .f32) :
    k0_pay43 v1 v4 v150 = Tile.tRow (k0_pay40 v150) v1 v4 := rfl

-- From here on the tile functions are read only through their index lemmas.
attribute [local irreducible] Tile.tSq Tile.ySq Tile.tMat Tile.tRow Tile.tCol

/-! ## The final total over the running column -/

/-- The indices of a 512-column with a unit axis on either side are its 512 row positions. -/
private def colEquiv : S1x512x1.Idx ≃ Fin 512 where
  toFun i := i 1
  invFun r := ix3 (0 : Fin 1) r (0 : Fin 1)
  left_inv i := by
    refine (eq_ix3 i).symm ▸ ?_
    funext a
    match a with
    | ⟨0, _⟩ => exact Subsingleton.elim (α := Fin 1) _ _
    | ⟨1, _⟩ => rfl
    | ⟨2, _⟩ => exact Subsingleton.elim (α := Fin 1) _ _
  right_inv r := rfl

/-- The stored value: the running column plus the last tile's clamped column, summed over the 512 row positions. -/
private theorem pay1_apply (v144 v162 v163 : FVec Ideal S512x1 .f32) (i : S1x1x1.Idx) :
    k0_pay1 v144 v162 v163 i = ∑ r : Fin 512, (v144 (ix2 r 0) + max (v162 (ix2 r 0)) (v163 (ix2 r 0))) := by
  unfold k0_pay1
  show shapeCast S1x1x1 (multiReduction .add [1, 2] S1 (shapeCast S1x512x1 (addf v144 (maximumf v162 v163)) shapeCasts_S512x1_S1x512x1) 0x00000000#32 reduces_S1x512x1_S1 (.inl rfl) rfl) shapeCasts_S1_S1x1x1 _ = _
  unfold shapeCast
  refine (Ideal.multiReduction_add_total _ _ _ (fun b => by fin_cases b; rfl) _ _ _).trans ?_
  refine (Fintype.sum_equiv colEquiv.symm _ _ fun r => ?_).symm
  exact (shapeCast_ab_1ab_apply (addf v144 (maximumf v162 v163)) shapeCasts_S512x1_S1x512x1 0 r 0).symm

/-! ## The loads -/

/-- A load of 512 rows from row `off` reads row `off + r` at its row `r`. -/
private theorem ld_tile (x0 : Vec Ideal S1x4096x8 .f32) (off : Nat) (inb : ∀ a, (![0, off, 0] : Fin 3 → Nat) a + S1x512x8.size a ≤ S1x4096x8.size a)
    (r : Fin 512) (k : Fin 8) (h : off + r.val < 4096) :
    View.ld x0 (Rect.unit (s := S1x4096x8) ![0, off, 0] S1x512x8.size inb) (ix3 0 r k) = x0 (ix3 0 ⟨off + r.val, h⟩ k) := by
  show x0 _ = x0 _
  refine congrArg x0 (funext fun a => Fin.ext ?_)
  match a with
  | ⟨0, _⟩ => rfl
  | ⟨1, _⟩ => show off + 1 * r.val = off + r.val; omega
  | ⟨2, _⟩ => show 0 + 1 * k.val = k.val; omega

/-- The second cloud's block with its unit axis dropped. -/
private theorem pay3_apply (x1 : Vec Ideal S1x8x4096 .f32) (k : Fin 8) (m : Fin 4096) :
    k0_pay3 (View.ld x1 r0_0) (ix2 k m) = x1 (ix3 0 k m) := by
  unfold k0_pay3
  have hz : (![0, 0, 0] : Fin 3 → Nat) = fun _ => 0 := funext fun a => by fin_cases a <;> rfl
  rw [View.ld_unit_zero hz]
  exact shapeCast_1ab_ab_apply x1 shapeCasts_S1x8x4096_S8x4096 k m

/-- A tile of the first cloud's block with its unit axis dropped. -/
private theorem tile_apply (x0 : Vec Ideal S1x4096x8 .f32) (off : Nat) (inb : ∀ a, (![0, off, 0] : Fin 3 → Nat) a + S1x512x8.size a ≤ S1x4096x8.size a)
    (r : Fin 512) (k : Fin 8) (h : off + r.val < 4096) :
    shapeCast S512x8 (View.ld x0 (Rect.unit (s := S1x4096x8) ![0, off, 0] S1x512x8.size inb)) shapeCasts_S1x512x8_S512x8 (ix2 r k)
      = x0 (ix3 0 ⟨off + r.val, h⟩ k) :=
  (shapeCast_1ab_ab_apply _ shapeCasts_S1x512x8_S512x8 r k).trans (ld_tile x0 off inb r k h)

/-! ## One tile's clamped row minima -/

/-- The clamped row term of the block at row `n`. -/
private def rowT (x0 : Vec Ideal S1x4096x8 .f32) (x1 : Vec Ideal S1x8x4096 .f32) (n : Fin 4096) : EReal :=
  max ((Finset.univ.inf fun m : Fin 4096 => Cert.Chamfer.bscaled x0 x1 n m + Cert.Chamfer.bsqY x1 m) + Cert.Chamfer.bsqX x0 n) 0

/-- A tile whose rows are rows `512·j + r` of the block has, at row `r`, the block's clamped row term there. -/
private theorem tile_row (x0 : Vec Ideal S1x4096x8 .f32) (x1 : Vec Ideal S1x8x4096 .f32)
    (a : FVec Ideal S512x8 .f32) (yb : FVec Ideal S8x4096 .f32) (j : Fin 8)
    (ha : ∀ (r : Fin 512) (k : Fin 8), a (ix2 r k) = x0 (ix3 0 ⟨512 * j.val + r.val, Cert.LibSumBlocks.block_lt (A := 8) (B := 512) rfl j r⟩ k))
    (hy : ∀ (k : Fin 8) (m : Fin 4096), yb (ix2 k m) = x1 (ix3 0 k m)) (r : Fin 512) :
    max (Tile.tRow a yb (Tile.ySq yb) (ix2 r 0)) (Z (ix2 r 0))
      = rowT x0 x1 ⟨512 * j.val + r.val, Cert.LibSumBlocks.block_lt (A := 8) (B := 512) rfl j r⟩ := by
  have hZ : Z (ix2 r 0) = (0 : EReal) := Ideal.ofBits_zero_f32
  have hM : ∀ m : Fin 4096, Tile.tMat a yb (ix2 r m)
      = Cert.Chamfer.bscaled x0 x1 ⟨512 * j.val + r.val, Cert.LibSumBlocks.block_lt (A := 8) (B := 512) rfl j r⟩ m := fun m =>
    (Tile.tMat_apply a yb r m).trans (Finset.sum_congr rfl fun k _ => by rw [ha r k, hy k m])
  have hY : ∀ m : Fin 4096, Tile.ySq yb (ix2 0 m) = Cert.Chamfer.bsqY x1 m := fun m =>
    (Tile.ySq_apply yb m).trans (Finset.sum_congr rfl fun k _ => by rw [hy k m])
  have hS : Tile.tSq a (ix2 r 0)
      = Cert.Chamfer.bsqX x0 ⟨512 * j.val + r.val, Cert.LibSumBlocks.block_lt (A := 8) (B := 512) rfl j r⟩ :=
    (Tile.tSq_apply a r).trans (Finset.sum_congr rfl fun k _ => by rw [ha r k])
  rw [hZ, Tile.tRow_apply, hS]
  unfold rowT
  refine congrArg (fun t => max (t + _) 0) ?_
  exact Finset.inf_congr rfl fun m _ => by rw [hM m, hY m]

/-! ## The running column -/

/-- The running column after the eight tiles, at one row position: the eight clamped terms added left to right. -/
private theorem chain_apply (R0 R1 R2 R3 R4 R5 R6 R7 : FVec Ideal S512x1 .f32) (r : Fin 512) :
    (addf (addf (addf (addf (addf (addf (maximumf R0 Z) (maximumf R1 Z)) (maximumf R2 Z)) (maximumf R3 Z)) (maximumf R4 Z))
        (maximumf R5 Z)) (maximumf R6 Z)) (ix2 r 0) + max (R7 (ix2 r 0)) (Z (ix2 r 0))
      = max (R0 (ix2 r 0)) (Z (ix2 r 0)) + max (R1 (ix2 r 0)) (Z (ix2 r 0)) + max (R2 (ix2 r 0)) (Z (ix2 r 0))
        + max (R3 (ix2 r 0)) (Z (ix2 r 0)) + max (R4 (ix2 r 0)) (Z (ix2 r 0)) + max (R5 (ix2 r 0)) (Z (ix2 r 0))
        + max (R6 (ix2 r 0)) (Z (ix2 r 0)) + max (R7 (ix2 r 0)) (Z (ix2 r 0)) := rfl

/-! ## The first result -/

/-- The first result's staging buffer after the body, at its one index. -/
theorem out0_2_apply (x0 : Vec Ideal S1x4096x8 .f32) (x1 : Vec Ideal S1x8x4096 .f32) (i : S1x1x1.Idx) :
    out0_2 (F := Ideal) x0 x1 i = Cert.Chamfer.blockRowSum x0 x1 := by
  have hz : (![0, 0, 0] : Fin 3 → Nat) = fun _ => 0 := funext fun a => by fin_cases a <;> rfl
  have hy := pay3_apply x1
  have h0 : ∀ (r : Fin 512) (k : Fin 8), k0_pay5 (View.ld x0 r0_1) (ix2 r k)
      = x0 (ix3 0 ⟨512 * (0 : Fin 8).val + r.val, Cert.LibSumBlocks.block_lt (A := 8) (B := 512) rfl 0 r⟩ k) :=
    fun r k => tile_apply x0 0 inb_S1x4096x8_S1x512x8_0_0_0 r k (by omega)
  have h1 : ∀ (r : Fin 512) (k : Fin 8), k0_pay10 (View.ld x0 r0_2) (ix2 r k)
      = x0 (ix3 0 ⟨512 * (1 : Fin 8).val + r.val, Cert.LibSumBlocks.block_lt (A := 8) (B := 512) rfl 1 r⟩ k) :=
    fun r k => tile_apply x0 512 inb_S1x4096x8_S1x512x8_0_512_0 r k (by omega)
  have h2 : ∀ (r : Fin 512) (k : Fin 8), k0_pay15 (View.ld x0 r0_3) (ix2 r k)
      = x0 (ix3 0 ⟨512 * (2 : Fin 8).val + r.val, Cert.LibSumBlocks.block_lt (A := 8) (B := 512) rfl 2 r⟩ k) :=
    fun r k => tile_apply x0 1024 inb_S1x4096x8_S1x512x8_0_1024_0 r k (by omega)
  have h3 : ∀ (r : Fin 512) (k : Fin 8), k0_pay20 (View.ld x0 r0_4) (ix2 r k)
      = x0 (ix3 0 ⟨512 * (3 : Fin 8).val + r.val, Cert.LibSumBlocks.block_lt (A := 8) (B := 512) rfl 3 r⟩ k) :=
    fun r k => tile_apply x0 1536 inb_S1x4096x8_S1x512x8_0_1536_0 r k (by omega)
  have h4 : ∀ (r : Fin 512) (k : Fin 8), k0_pay25 (View.ld x0 r0_5) (ix2 r k)
      = x0 (ix3 0 ⟨512 * (4 : Fin 8).val + r.val, Cert.LibSumBlocks.block_lt (A := 8) (B := 512) rfl 4 r⟩ k) :=
    fun r k => tile_apply x0 2048 inb_S1x4096x8_S1x512x8_0_2048_0 r k (by omega)
  have h5 : ∀ (r : Fin 512) (k : Fin 8), k0_pay30 (View.ld x0 r0_6) (ix2 r k)
      = x0 (ix3 0 ⟨512 * (5 : Fin 8).val + r.val, Cert.LibSumBlocks.block_lt (A := 8) (B := 512) rfl 5 r⟩ k) :=
    fun r k => tile_apply x0 2560 inb_S1x4096x8_S1x512x8_0_2560_0 r k (by omega)
  have h6 : ∀ (r : Fin 512) (k : Fin 8), k0_pay35 (View.ld x0 r0_7) (ix2 r k)
      = x0 (ix3 0 ⟨512 * (6 : Fin 8).val + r.val, Cert.LibSumBlocks.block_lt (A := 8) (B := 512) rfl 6 r⟩ k) :=
    fun r k => tile_apply x0 3072 inb_S1x4096x8_S1x512x8_0_3072_0 r k (by omega)
  have h7 : ∀ (r : Fin 512) (k : Fin 8), k0_pay40 (View.ld x0 r0_8) (ix2 r k)
      = x0 (ix3 0 ⟨512 * (7 : Fin 8).val + r.val, Cert.LibSumBlocks.block_lt (A := 8) (B := 512) rfl 7 r⟩ k) :=
    fun r k => tile_apply x0 3584 inb_S1x4096x8_S1x512x8_0_3584_0 r k (by omega)
  unfold out0_2
  rw [View.canon_unit_zero hz, pay1_apply, pay38_eq, pay28_eq, pay18_eq, pay8_eq, pay13_eq, pay23_eq, pay33_eq, pay43_eq,
    pay14_eq, pay24_eq, pay34_eq, pay44_eq, pay4_eq]
  trans ∑ r : Fin 512, ∑ j : Fin 8,
      rowT x0 x1 ⟨512 * j.val + r.val, Cert.LibSumBlocks.block_lt (A := 8) (B := 512) rfl j r⟩
  · refine Finset.sum_congr rfl fun r _ => ?_
    refine (chain_apply _ _ _ _ _ _ _ _ r).trans ?_
    rw [tile_row x0 x1 _ _ 0 h0 hy r, tile_row x0 x1 _ _ 1 h1 hy r, tile_row x0 x1 _ _ 2 h2 hy r,
      tile_row x0 x1 _ _ 3 h3 hy r, tile_row x0 x1 _ _ 4 h4 hy r, tile_row x0 x1 _ _ 5 h5 hy r,
      tile_row x0 x1 _ _ 6 h6 hy r, tile_row x0 x1 _ _ 7 h7 hy r]
    exact (Fin.sum_univ_eight (fun j : Fin 8 =>
      rowT x0 x1 ⟨512 * j.val + r.val, Cert.LibSumBlocks.block_lt (A := 8) (B := 512) rfl j r⟩)).symm
  · rw [Finset.sum_comm]
    exact Cert.LibSumBlocks.sum_blocks (A := 8) (B := 512) rfl (rowT x0 x1)

end Cert.KernelIdeal.BodyValue

end
-- ==== Proof.BodyCol.lean ====
/-
  What one grid point writes to the second result at column m: the minimum over the block's 4096 rows of product plus
  row norm, then the column's norm added and the sum clamped at 0.  The kernel takes the minimum in stages — within a tile
  over the rows eight apart, across the eight tiles elementwise, and last over the eight row classes —; a minimum of minima
  over a partition of the rows is the minimum over all rows.
-/
import proofs.«144117_g43800076485249_cont_8to1_b_1262_21_alg».proof.Proof.Gen.KernelIdeal.Frame
import proofs.«144117_g43800076485249_cont_8to1_b_1262_21_alg».proof.Proof.Tile
import proofs.«144117_g43800076485249_cont_8to1_b_1262_21_alg».proof.Proof.Spec

noncomputable section

open scoped BigOperators

namespace Cert.KernelIdeal.BodyValue

open Idealize.ShloMosaic Idealize.ShloMosaic.ValueIdx Cert.KernelIdeal Cert.KernelIdeal.Gen

/-! ## Minima over a partition of the rows -/

/-- The left-nested minimum of eight values is the infimum over their index. -/
private theorem nest8_eq_inf (c : Fin 8 → EReal) :
    min (min (min (min (min (min (min (c 0) (c 1)) (c 2)) (c 3)) (c 4)) (c 5)) (c 6)) (c 7)
      = Finset.univ.inf c := by
  apply le_antisymm
  · refine Finset.le_inf fun j _ => ?_
    fin_cases j
    · exact (min_le_left _ _).trans <| (min_le_left _ _).trans <| (min_le_left _ _).trans <|
        (min_le_left _ _).trans <| (min_le_left _ _).trans <| (min_le_left _ _).trans <| min_le_left _ _
    · exact (min_le_left _ _).trans <| (min_le_left _ _).trans <| (min_le_left _ _).trans <|
        (min_le_left _ _).trans <| (min_le_left _ _).trans <| (min_le_left _ _).trans <| min_le_right _ _
    · exact (min_le_left _ _).trans <| (min_le_left _ _).trans <| (min_le_left _ _).trans <|
        (min_le_left _ _).trans <| (min_le_left _ _).trans <| min_le_right _ _
    · exact (min_le_left _ _).trans <| (min_le_left _ _).trans <| (min_le_left _ _).trans <|
        (min_le_left _ _).trans <| min_le_right _ _
    · exact (min_le_left _ _).trans <| (min_le_left _ _).trans <| (min_le_left _ _).trans <| min_le_right _ _
    · exact (min_le_left _ _).trans <| (min_le_left _ _).trans <| min_le_right _ _
    · exact (min_le_left _ _).trans <| min_le_right _ _
    · exact min_le_right _ _
  · have h : ∀ j : Fin 8, Finset.univ.inf c ≤ c j := fun j => Finset.inf_le (Finset.mem_univ j)
    exact le_min (le_min (le_min (le_min (le_min (le_min (le_min (h 0) (h 1)) (h 2)) (h 3)) (h 4)) (h 5)) (h 6)) (h 7)

/-- The 4096 rows of a block split into eight tiles of 512, and each tile into eight classes of rows eight apart:
    the infimum over the classes of the infimum over the tiles of the infimum within a class is the infimum over
    all rows. -/
private theorem inf_classes_tiles (g : Fin 4096 → EReal) :
    (Finset.univ.inf fun s : Fin 8 => Finset.univ.inf fun j : Fin 8 => Finset.univ.inf fun q : Fin 64 =>
        g ⟨512 * j.val + (q.val * 8 + s.val), by omega⟩) = Finset.univ.inf g := by
  apply le_antisymm
  · refine Finset.le_inf fun n _ => ?_
    have hn := n.isLt
    refine (Finset.inf_le (Finset.mem_univ (⟨n.val % 8, by omega⟩ : Fin 8))).trans ?_
    refine (Finset.inf_le (Finset.mem_univ (⟨n.val / 512, by omega⟩ : Fin 8))).trans ?_
    refine (Finset.inf_le (Finset.mem_univ (⟨n.val % 512 / 8, by omega⟩ : Fin 64))).trans ?_
    exact le_of_eq (congrArg g (Fin.ext (by show 512 * (n.val / 512) + (n.val % 512 / 8 * 8 + n.val % 8) = n.val; omega)))
  · exact Finset.le_inf fun s _ => Finset.le_inf fun j _ => Finset.le_inf fun q _ => Finset.inf_le (Finset.mem_univ _)

/-! ## A minimum-reduction over one axis -/

/-- A minimum-reduction over one axis: the fold of min from the accumulator's value over that axis's coordinates. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The nested elementwise minimum of eight arrays, at an index. -/
private theorem nest_apply (c : Fin 8 → FVec Ideal S8x4096 .f32) (i : S8x4096.Idx) :
    minimumf (minimumf (minimumf (minimumf (minimumf (minimumf (minimumf (c 0) (c 1)) (c 2)) (c 3)) (c 4)) (c 5)) (c 6)) (c 7) i
      = Finset.univ.inf fun j : Fin 8 => c j i := by
  simp only [minimumf_apply]
  exact nest8_eq_inf fun j => c j i

/-! ## The last stage: the minimum over the eight row classes, the column's norm added, the clamp -/

/-- The minimum-reduction of an 8 × 4096 array over its rows, at column m: the infimum over the eight rows. -/
private theorem minRows_apply (C : FVec Ideal S8x4096 .f32) (mm : Fin 4096) :
    multiReduction .minimumf [0] S4096 C 0x7F800000#32 reduces_S8x4096_S4096 (.inl rfl) rfl (ix1 mm)
      = Finset.univ.inf fun s : Fin 8 => C (ix2 s mm) := by
  refine (multiReduction_minimumf_single C _ reduces_S8x4096_S4096 _ _ (ix1 mm)).trans ?_
  have e : (C ∘ reduces_S8x4096_S4096.lift (ix1 mm)) = fun s : Fin 8 => C (ix2 s mm) :=
    funext fun s => congrArg C (funext fun a => by fin_cases a <;> rfl)
  rw [e]
  show Finset.fold min (Ideal.ofBits .f32 0x7F800000#32) _ _ = _
  rw [Tile.ofBits_pos_inf]
  rfl

/-- What the kernel makes of the running column minima C (8 × 4096) and the column norms y2. -/
private def colOut (y2 : FVec Ideal S1x4096 .f32) (C : FVec Ideal S8x4096 .f32) : FVec Ideal S1x1x4096 .f32 :=
  shapeCast S1x1x4096 (maximumf (addf (shapeCast S1x4096 (multiReduction .minimumf [0] S4096 C 0x7F800000#32 reduces_S8x4096_S4096 (.inl rfl) rfl) shapeCasts_S4096_S1x4096) y2) (broadcast S1x4096 (Scalar.ofBits .f32 0x00000000#32))) shapeCasts_S1x4096_S1x1x4096

private theorem colOut_apply (y2 : FVec Ideal S1x4096 .f32) (C : FVec Ideal S8x4096 .f32) (mm : Fin 4096) :
    colOut y2 C (ix3 0 0 mm) = max ((Finset.univ.inf fun s : Fin 8 => C (ix2 s mm)) + y2 (ix2 0 mm)) 0 := by
  unfold colOut
  refine (shapeCast_ab_1ab_apply _ _ 0 0 mm).trans ?_
  rw [maximumf_apply, addf_apply, broadcast_apply, shapeCast_a_1a_apply]
  exact congrArg₂ max (congrArg (· + y2 (ix2 0 mm)) (minRows_apply C mm)) Ideal.ofBits_zero_f32

/-! ## The printed payloads as compositions of the tile functions -/

section Payloads
variable (L : Vec Ideal S1x8x4096 .f32) (A : Vec Ideal S1x512x8 .f32) (yb v : FVec Ideal S8x4096 .f32)
  (y2 : FVec Ideal S1x4096 .f32) (xa : FVec Ideal S512x8 .f32)

private theorem pay4_eq : k0_pay4 (F := Ideal) L = Tile.ySq (k0_pay3 L) := rfl
private theorem pay9_eq : k0_pay9 (F := Ideal) L A = Tile.tCol (k0_pay5 A) (k0_pay3 L) := rfl
private theorem pay11_eq : k0_pay11 (F := Ideal) A = Tile.tSq (k0_pay5 A) := rfl
private theorem pay12_eq : k0_pay12 (F := Ideal) L A = Tile.tMat (k0_pay5 A) (k0_pay3 L) := rfl
private theorem pay19_eq : k0_pay19 (F := Ideal) yb v (Tile.tSq xa) (Tile.tMat xa yb) A
    = minimumf (minimumf v (Tile.tCol xa yb)) (Tile.tCol (k0_pay5 A) yb) := rfl
private theorem pay21_eq : k0_pay21 (F := Ideal) A = Tile.tSq (k0_pay5 A) := rfl
private theorem pay22_eq : k0_pay22 (F := Ideal) yb A = Tile.tMat (k0_pay5 A) yb := rfl
private theorem pay29_eq : k0_pay29 (F := Ideal) yb v (Tile.tSq xa) (Tile.tMat xa yb) A
    = minimumf (minimumf v (Tile.tCol xa yb)) (Tile.tCol (k0_pay5 A) yb) := rfl
private theorem pay31_eq : k0_pay31 (F := Ideal) A = Tile.tSq (k0_pay5 A) := rfl
private theorem pay32_eq : k0_pay32 (F := Ideal) yb A = Tile.tMat (k0_pay5 A) yb := rfl
private theorem pay39_eq : k0_pay39 (F := Ideal) yb v (Tile.tSq xa) (Tile.tMat xa yb) A
    = minimumf (minimumf v (Tile.tCol xa yb)) (Tile.tCol (k0_pay5 A) yb) := rfl
private theorem pay41_eq : k0_pay41 (F := Ideal) A = Tile.tSq (k0_pay5 A) := rfl
private theorem pay42_eq : k0_pay42 (F := Ideal) yb A = Tile.tMat (k0_pay5 A) yb := rfl
private theorem pay2_eq : k0_pay2 (F := Ideal) y2 v (Tile.tSq xa) (Tile.tMat xa yb)
    = colOut y2 (minimumf v (Tile.tCol xa yb)) := rfl

end Payloads

/-! From here on the tile functions are opaque: every step on them is by their reading lemmas. -/

attribute [local irreducible] Tile.tSq Tile.ySq Tile.tMat Tile.tRow Tile.tCol

/-! ## The tiles of the first block -/

private theorem tile_lt (j : Fin 8) (r : Fin 512) : 512 * j.val + r.val < 4096 := by omega

/-- Tile j of the staged first block: its rows 512·j, …, 512·j + 511. -/
private def tile (x0 : Vec Ideal S1x4096x8 .f32) (j : Fin 8) : FVec Ideal S512x8 .f32 :=
  fun i => x0 (ix3 0 ⟨512 * j.val + (i 0).val, tile_lt j (i 0)⟩ (i 1))

private theorem tile_apply (x0 : Vec Ideal S1x4096x8 .f32) (j : Fin 8) (r : Fin 512) (k : Fin 8) :
    tile x0 j (ix2 r k) = x0 (ix3 0 ⟨512 * j.val + r.val, tile_lt j r⟩ k) := rfl

/-- A staged tile with its leading unit axis dropped, read by coordinates. -/
private theorem pay5_apply (A : Vec Ideal S1x512x8 .f32) (r : Fin 512) (k : Fin 8) :
    k0_pay5 (F := Ideal) A (ix2 r k) = A (ix3 0 r k) := by
  unfold k0_pay5
  exact shapeCast_1ab_ab_apply A shapeCasts_S1x512x8_S512x8 r k

/-- The load of 512 rows from row offset 512·j, its leading unit axis dropped, is tile j. -/
private theorem ld_tile (x0 : Vec Ideal S1x4096x8 .f32) (o : Nat)
    (inb : ∀ a, (![0, o, 0] : Fin 3 → Nat) a + S1x512x8.size a ≤ S1x4096x8.size a) (j : Fin 8) (hj : o = 512 * j.val) :
    k0_pay5 (F := Ideal) (View.ld x0 (Rect.unit (s := S1x4096x8) ![0, o, 0] S1x512x8.size inb)) = tile x0 j := by
  subst hj
  funext i
  obtain ⟨r, k, rfl⟩ : ∃ (r : Fin 512) (k : Fin 8), i = ix2 r k := ⟨i 0, i 1, eq_ix2 i⟩
  refine (pay5_apply _ r k).trans ?_
  rw [tile_apply]
  refine congrArg x0 (funext fun a => ?_)
  fin_cases a
  · exact Fin.ext (by show 0 + 1 * 0 = 0; rfl)
  · exact Fin.ext (by show 512 * j.val + 1 * r.val = 512 * j.val + r.val; rw [Nat.one_mul])
  · exact Fin.ext (by show 0 + 1 * k.val = k.val; rw [Nat.one_mul, Nat.zero_add])

/-- The second block with its leading unit axis dropped, read by coordinates. -/
private theorem pay3_apply (x1 : Vec Ideal S1x8x4096 .f32) (k : Fin 8) (m : Fin 4096) :
    k0_pay3 (F := Ideal) x1 (ix2 k m) = x1 (ix3 0 k m) := by
  unfold k0_pay3
  exact shapeCast_1ab_ab_apply x1 shapeCasts_S1x8x4096_S8x4096 k m

/-! ## The column value -/

/-- Product plus row norm at row n of the block, for the column m: what the column minimum is taken over. -/
private def colG (x0 : Vec Ideal S1x4096x8 .f32) (x1 : Vec Ideal S1x8x4096 .f32) (mm : Fin 4096) (n : Fin 4096) : EReal :=
  Cert.Chamfer.bscaled x0 x1 n mm + Cert.Chamfer.bsqX x0 n

/-- A tile's column of minima read against the block: within row class s of tile j, the infimum of product plus row norm. -/
private theorem tCol_tile (x0 : Vec Ideal S1x4096x8 .f32) (x1 : Vec Ideal S1x8x4096 .f32) (mm : Fin 4096) (j s : Fin 8) :
    Tile.tCol (tile x0 j) (k0_pay3 x1) (ix2 s mm) = Finset.univ.inf fun q : Fin 64 =>
      colG x0 x1 mm ⟨512 * j.val + (q.val * 8 + s.val), by omega⟩ := by
  rw [Tile.tCol_apply]
  refine Finset.inf_congr rfl fun q _ => ?_
  rw [Tile.tMat_apply, Tile.tSq_apply]
  unfold colG Cert.Chamfer.bscaled Cert.Chamfer.bsqX
  refine congrArg₂ (· + ·) (Finset.sum_congr rfl fun k _ => ?_) (Finset.sum_congr rfl fun k _ => ?_)
  · rw [pay3_apply, tile_apply]
  · rw [tile_apply]

/-- The eight tiles' columns of minima, nested, at row class s: the infimum over the tiles and within the class. -/
private theorem nest_tiles (x0 : Vec Ideal S1x4096x8 .f32) (x1 : Vec Ideal S1x8x4096 .f32) (mm : Fin 4096) (s : Fin 8) :
    minimumf (minimumf (minimumf (minimumf (minimumf (minimumf (minimumf
        (Tile.tCol (tile x0 0) (k0_pay3 x1)) (Tile.tCol (tile x0 1) (k0_pay3 x1))) (Tile.tCol (tile x0 2) (k0_pay3 x1)))
        (Tile.tCol (tile x0 3) (k0_pay3 x1))) (Tile.tCol (tile x0 4) (k0_pay3 x1))) (Tile.tCol (tile x0 5) (k0_pay3 x1)))
        (Tile.tCol (tile x0 6) (k0_pay3 x1))) (Tile.tCol (tile x0 7) (k0_pay3 x1)) (ix2 s mm)
      = Finset.univ.inf fun j : Fin 8 => Finset.univ.inf fun q : Fin 64 =>
          colG x0 x1 mm ⟨512 * j.val + (q.val * 8 + s.val), by omega⟩ :=
  (nest_apply (fun j => Tile.tCol (tile x0 j) (k0_pay3 x1)) (ix2 s mm)).trans
    (Finset.inf_congr rfl fun j _ => tCol_tile x0 x1 mm j s)

attribute [local irreducible] colOut tile

/-- The second result's staging buffer after the body, at column m. -/
theorem out0_3_apply (x0 : Vec Ideal S1x4096x8 .f32) (x1 : Vec Ideal S1x8x4096 .f32) (mm : Fin 4096) :
    out0_3 (F := Ideal) x0 x1 (ix3 0 0 mm) = Cert.Chamfer.blockCol x0 x1 mm := by
  have hz : (![0, 0, 0] : Fin 3 → Nat) = fun _ => 0 := funext fun a => by fin_cases a <;> rfl
  unfold out0_3
  rw [View.canon_unit_zero hz, View.ld_unit_zero hz]
  rw [pay4_eq, pay9_eq, pay11_eq, pay12_eq, pay21_eq, pay22_eq, pay31_eq, pay32_eq, pay41_eq, pay42_eq]
  rw [pay19_eq, pay29_eq, pay39_eq, pay2_eq]
  have t0 : k0_pay5 (F := Ideal) (View.ld x0 r0_1) = tile x0 0 := ld_tile x0 0 _ 0 rfl
  have t1 : k0_pay5 (F := Ideal) (View.ld x0 r0_2) = tile x0 1 := ld_tile x0 512 _ 1 rfl
  have t2 : k0_pay5 (F := Ideal) (View.ld x0 r0_3) = tile x0 2 := ld_tile x0 1024 _ 2 rfl
  have t3 : k0_pay5 (F := Ideal) (View.ld x0 r0_4) = tile x0 3 := ld_tile x0 1536 _ 3 rfl
  have t4 : k0_pay5 (F := Ideal) (View.ld x0 r0_5) = tile x0 4 := ld_tile x0 2048 _ 4 rfl
  have t5 : k0_pay5 (F := Ideal) (View.ld x0 r0_6) = tile x0 5 := ld_tile x0 2560 _ 5 rfl
  have t6 : k0_pay5 (F := Ideal) (View.ld x0 r0_7) = tile x0 6 := ld_tile x0 3072 _ 6 rfl
  have t7 : k0_pay5 (F := Ideal) (View.ld x0 r0_8) = tile x0 7 := ld_tile x0 3584 _ 7 rfl
  rw [t0, t1, t2, t3, t4, t5, t6, t7]
  refine (colOut_apply _ _ mm).trans ?_
  unfold Cert.Chamfer.blockCol
  refine congrArg₂ max (congrArg₂ (· + ·) ?_ ?_) rfl
  · exact (Finset.inf_congr rfl fun s _ => nest_tiles x0 x1 mm s).trans (inf_classes_tiles (colG x0 x1 mm))
  · rw [Tile.ySq_apply]
    unfold Cert.Chamfer.bsqY
    exact Finset.sum_congr rfl fun k _ => by rw [pay3_apply]

end Cert.KernelIdeal.BodyValue

end
-- ==== Proof.SpecPad.lean ====
/-
  Over a padded block the sums over the 8 staged coordinates are the sums over the 3 real ones: a padded coordinate
  contributes 0 · 0 = 0 to a squared norm and (0 · (−2)) · 0 = 0 to the scaled product.
-/
import proofs.«144117_g43800076485249_cont_8to1_b_1262_21_alg».proof.Proof.Spec

noncomputable section

open scoped BigOperators

namespace Cert.Chamfer

open Idealize.ShloMosaic Idealize.ShloMosaic.ValueIdx

/-- A real coordinate of the padded first block is the cloud's entry. -/
private theorem padX_lt (x : Cloud) (b : Fin 8) (n : Fin 4096) (k : Fin 8) (h : k.val < 3) :
    padX x b (ix3 0 n k) = x (ix3 b n ⟨k.val, h⟩) := dif_pos h

/-- A padded coordinate of the first block is 0. -/
private theorem padX_ge (x : Cloud) (b : Fin 8) (n : Fin 4096) (k : Fin 8) (h : ¬ k.val < 3) :
    padX x b (ix3 0 n k) = 0 := dif_neg h

/-- A real coordinate of the padded, transposed second block is the cloud's entry. -/
private theorem padYT_lt (y : Cloud) (b : Fin 8) (m : Fin 4096) (k : Fin 8) (h : k.val < 3) :
    padYT y b (ix3 0 k m) = y (ix3 b m ⟨k.val, h⟩) := dif_pos h

/-- A padded coordinate of the second block is 0. -/
private theorem padYT_ge (y : Cloud) (b : Fin 8) (m : Fin 4096) (k : Fin 8) (h : ¬ k.val < 3) :
    padYT y b (ix3 0 k m) = 0 := dif_neg h

/-- The squared norm over the 8 staged coordinates of the first block is the squared norm of the point. -/
private theorem bsqX_pad (x : Cloud) (b : Fin 8) (n : Fin 4096) : bsqX (padX x b) n = sqn x b n := by
  unfold bsqX sqn
  rw [Fin.sum_univ_eight, Fin.sum_univ_three]
  rw [padX_lt x b n 0 (by decide), padX_lt x b n 1 (by decide), padX_lt x b n 2 (by decide),
    padX_ge x b n 3 (by decide), padX_ge x b n 4 (by decide), padX_ge x b n 5 (by decide),
    padX_ge x b n 6 (by decide), padX_ge x b n 7 (by decide)]
  simp only [mul_zero, add_zero]
  rfl

/-- The squared norm over the 8 staged coordinates of the second block is the squared norm of the point. -/
private theorem bsqY_pad (y : Cloud) (b : Fin 8) (m : Fin 4096) : bsqY (padYT y b) m = sqn y b m := by
  unfold bsqY sqn
  rw [Fin.sum_univ_eight, Fin.sum_univ_three]
  rw [padYT_lt y b m 0 (by decide), padYT_lt y b m 1 (by decide), padYT_lt y b m 2 (by decide),
    padYT_ge y b m 3 (by decide), padYT_ge y b m 4 (by decide), padYT_ge y b m 5 (by decide),
    padYT_ge y b m 6 (by decide), padYT_ge y b m 7 (by decide)]
  simp only [mul_zero, add_zero]
  rfl

/-- The scaled product over the 8 staged coordinates is the scaled product over the 3 real ones. -/
private theorem bscaled_pad (x y : Cloud) (b : Fin 8) (n m : Fin 4096) :
    bscaled (padX x b) (padYT y b) n m = scaled x y b n m := by
  unfold bscaled scaled
  rw [Fin.sum_univ_eight, Fin.sum_univ_three]
  rw [padX_lt x b n 0 (by decide), padX_lt x b n 1 (by decide), padX_lt x b n 2 (by decide),
    padX_ge x b n 3 (by decide), padX_ge x b n 4 (by decide), padX_ge x b n 5 (by decide),
    padX_ge x b n 6 (by decide), padX_ge x b n 7 (by decide),
    padYT_lt y b m 0 (by decide), padYT_lt y b m 1 (by decide), padYT_lt y b m 2 (by decide),
    padYT_ge y b m 3 (by decide), padYT_ge y b m 4 (by decide), padYT_ge y b m 5 (by decide),
    padYT_ge y b m 6 (by decide), padYT_ge y b m 7 (by decide)]
  simp only [mul_zero, add_zero]
  rfl

/-- The row sums of a padded block are the row terms of the clouds' entry b. -/
theorem blockRowSum_pad (x y : Cloud) (b : Fin 8) : blockRowSum (padX x b) (padYT y b) = ∑ n : Fin 4096, rowTerm x y b n := by
  simp only [blockRowSum, rowTerm, bsqX_pad, bsqY_pad, bscaled_pad]

/-- The column term of a padded block is the column term of the clouds' entry b. -/
theorem blockCol_pad (x y : Cloud) (b : Fin 8) (m : Fin 4096) : blockCol (padX x b) (padYT y b) m = colTerm x y b m := by
  simp only [blockCol, colTerm, bsqX_pad, bsqY_pad, bscaled_pad]

end Cert.Chamfer

end
-- ==== Proof.Arrays.lean ====
/-
  The two result arrays after the kernel.  Grid point t stages entry t of the first cloud, its coordinate axis padded from
  3 to 8 by zeros, and entry t of the second cloud padded likewise and transposed; it writes the block's row sum to element
  (t,0,0) of the first result and the block's 4096 column terms to row t of the second.  The eight points' blocks tile both
  results, so each result is one function of its index: the row sum, resp. the column term, of the clouds' entry i₀.
-/
import proofs.«144117_g43800076485249_cont_8to1_b_1262_21_alg».proof.Proof.Gen.KernelIdeal.Frame
import proofs.«144117_g43800076485249_cont_8to1_b_1262_21_alg».proof.Proof.BodyRow
import proofs.«144117_g43800076485249_cont_8to1_b_1262_21_alg».proof.Proof.BodyCol
import proofs.«144117_g43800076485249_cont_8to1_b_1262_21_alg».proof.Proof.Spec
import proofs.«144117_g43800076485249_cont_8to1_b_1262_21_alg».proof.Proof.SpecPad
import Idealize.ShloMosaic.Lib.Pipeline.Value
import Idealize.ShloMosaic.Lib.StableHlo.Run
import Idealize.ShloMosaic.Lib.KernelVsHost

noncomputable section

open scoped BigOperators

namespace Cert.KernelIdeal.ArrayValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The first staged array is the first cloud with five copies of the converted integer 0 appended on its coordinate axis. -/
private theorem V_v0 (c : Dev nD) : (V m c main_call0_v0 : S8x4096x8.Idx → EReal)
    = pad S8x4096x8 ![0,0,0] ![0,0,5] ![0,0,0] (m ((c : Thread nD τ).loc main_arg0) : S8x4096x3.Idx → EReal)
        (sitofp .f32 (constantI S_ 32 0#32) : FVec Ideal S_ .f32) Gen.pads_S8x4096x3_S8x4096x8_000_000_050 Gen.h_S_ := by
  dsimp only [Gen.V, Gen.V0]
  simp only [Gen.hostOps0, List.flatten_cons, List.flatten_nil, List.append_nil, List.cons_append, List.nil_append]
  after_results
  rfl

/-- The second staged array is the second cloud padded likewise, its last two axes exchanged. -/
private theorem V_v2 (c : Dev nD) : (V m c main_call0_v2 : S8x8x4096.Idx → EReal)
    = transpose S8x8x4096 [0, 2, 1] (pad S8x4096x8 ![0,0,0] ![0,0,5] ![0,0,0]
        (m ((c : Thread nD τ).loc main_arg1) : S8x4096x3.Idx → EReal)
        (sitofp .f32 (constantI S_ 32 0#32) : FVec Ideal S_ .f32) Gen.pads_S8x4096x3_S8x4096x8_000_000_050 Gen.h_S_)
        Gen.transposes_S8x4096x8_S8x8x4096_0_2_1 := by
  dsimp only [Gen.V, Gen.V0]
  simp only [Gen.hostOps0, List.flatten_cons, List.flatten_nil, List.append_nil, List.cons_append, List.nil_append]
  after_results
  rfl

/-- The padded cloud at (b, n, k): the cloud's entry for a real coordinate, 0 for a padded one. -/
private theorem padded_apply (x : S8x4096x3.Idx → EReal) (b : Fin 8) (n : Fin 4096) (k : Fin 8) :
    pad S8x4096x8 ![0,0,0] ![0,0,5] ![0,0,0] x (sitofp .f32 (constantI S_ 32 0#32) : FVec Ideal S_ .f32)
        Gen.pads_S8x4096x3_S8x4096x8_000_000_050 Gen.h_S_ (ix3 b n k)
      = if h : k.val < 3 then x (ix3 b n ⟨k.val, h⟩) else 0 := by
  by_cases h : k.val < 3
  · rw [dif_pos h]
    refine pad_apply_of_inside _ _ _ x _ _ _ _ (ix3 b n (⟨k.val, h⟩ : Fin 3)) fun a => ?_
    match a with
    | ⟨0, _⟩ => show b.val = 0 + b.val * (0 + 1); omega
    | ⟨1, _⟩ => show n.val = 0 + n.val * (0 + 1); omega
    | ⟨2, _⟩ => show k.val = 0 + k.val * (0 + 1); omega
  · rw [dif_neg h]
    refine (pad_apply_of_not_inside _ _ _ x _ _ _ _ (2 : Fin 3) fun hin => ?_).trans ?_
    · have e : (k.val - 0) / (0 + 1) < 3 := hin.2.2
      omega
    · exact sitofp_zero (φ := .f32)

/-- The four index maps over the grid: point t's block is block (t, 0, 0) of each array. -/
private theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The grid point as a batch entry. -/
private abbrev ent (t : Fin cfg0.N) : Fin 8 := ⟨t.val, lt_of_lt_of_eq t.isLt N_0⟩

/-- The first window's block at point t is entry t of the first cloud, padded. -/
private theorem iblk0_eq (c : Dev nD) (t : Fin cfg0.N) :
    (iblk m c 0 t : Vec Ideal S1x4096x8 .f32) = Cert.Chamfer.padX (m ((c : Thread nD τ).loc main_arg0)) (ent t) := by
  funext y
  obtain ⟨y0, y1, y2, rfl⟩ : ∃ (y0 : Fin 1) (y1 : Fin 4096) (y2 : Fin 8), y = ix3 y0 y1 y2 := ⟨y 0, y 1, y 2, eq_ix3 y⟩
  obtain ⟨e0, e1, e2, -⟩ := idx_facts t
  have hy0 : y0.val = 0 := by omega
  have hemb : ((cfg0.win 0).blk t).view.emb (ix3 y0 y1 y2) = (ix3 (ent t) y1 y2 : S8x4096x8.Idx) := by
    funext a; apply Fin.ext
    match a with
    | ⟨0, _⟩ => show win0_0.index t (0 : Fin 3) * 1 + 1 * y0.val = t.val; rw [e0]; omega
    | ⟨1, _⟩ => show win0_0.index t (1 : Fin 3) * 4096 + 1 * y1.val = y1.val; rw [e1]; omega
    | ⟨2, _⟩ => show win0_0.index t (2 : Fin 3) * 8 + 1 * y2.val = y2.val; rw [e2]; omega
  unfold iblk
  rw [View.read_apply]
  show (V m c main_call0_v0 : S8x4096x8.Idx → EReal) (((cfg0.win 0).blk t).view.emb (ix3 y0 y1 y2)) = _
  rw [hemb, V_v0, padded_apply]
  rfl

/-- The second window's block at point t is entry t of the second cloud, padded and transposed. -/
private theorem iblk1_eq (c : Dev nD) (t : Fin cfg0.N) :
    (iblk m c 1 t : Vec Ideal S1x8x4096 .f32) = Cert.Chamfer.padYT (m ((c : Thread nD τ).loc main_arg1)) (ent t) := by
  funext y
  obtain ⟨y0, y1, y2, rfl⟩ : ∃ (y0 : Fin 1) (y1 : Fin 8) (y2 : Fin 4096), y = ix3 y0 y1 y2 := ⟨y 0, y 1, y 2, eq_ix3 y⟩
  obtain ⟨-, -, -, e0, e1, e2, -⟩ := idx_facts t
  have hy0 : y0.val = 0 := by omega
  have hemb : ((cfg0.win 1).blk t).view.emb (ix3 y0 y1 y2) = (ix3 (ent t) y1 y2 : S8x8x4096.Idx) := by
    funext a; apply Fin.ext
    match a with
    | ⟨0, _⟩ => show win0_1.index t (0 : Fin 3) * 1 + 1 * y0.val = t.val; rw [e0]; omega
    | ⟨1, _⟩ => show win0_1.index t (1 : Fin 3) * 8 + 1 * y1.val = y1.val; rw [e1]; omega
    | ⟨2, _⟩ => show win0_1.index t (2 : Fin 3) * 4096 + 1 * y2.val = y2.val; rw [e2]; omega
  unfold iblk
  rw [View.read_apply]
  show (V m c main_call0_v2 : S8x8x4096.Idx → EReal) (((cfg0.win 1).blk t).view.emb (ix3 y0 y1 y2)) = _
  rw [hemb, V_v2]
  refine (transpose_apply _ _ _ _ (ix3 (ent t) y2 y1 : S8x4096x8.Idx) fun b => ?_).trans ?_
  · match b with
    | ⟨0, _⟩ => rfl
    | ⟨1, _⟩ => rfl
    | ⟨2, _⟩ => rfl
  · rw [padded_apply]; rfl

/-- The first result as a function of its index: at (b,0,0) the sum of entry b's row terms. -/
private abbrev rowSums (c : Dev nD) : S8x1x1.Idx → EReal := fun i => ∑ n : Fin 4096,
  Cert.Chamfer.rowTerm (m ((c : Thread nD τ).loc main_arg0)) (m ((c : Thread nD τ).loc main_arg1)) (i 0) n

/-- The second result as a function of its index: at (b,0,j) entry b's column term at column j. -/
private abbrev colTerms (c : Dev nD) : S8x1x4096.Idx → EReal := fun i =>
  Cert.Chamfer.colTerm (m ((c : Thread nD τ).loc main_arg0)) (m ((c : Thread nD τ).loc main_arg1)) (i 0) (i 2)

/-- What point t writes back to the first result is block t of the row sums. -/
private theorem flushed2_eq (c : Dev nD) (t : Fin cfg0.N) :
    (dats m 0 c).flushed 2 t = ((cfg0.win 2).blk t).view.read (Elt Ideal) (rowSums m c) := by
  show (cfg0.win 2).cut (grid0.coords t) ((dats m 0 c).after 2 t) = _
  rw [after0_2, iblk0_eq, iblk1_eq]
  funext j
  obtain ⟨-, -, -, -, -, -, e0, e1, e2, -⟩ := idx_facts t
  have hj0 : (j 0).val < 1 := (j 0).isLt
  have hj1 : (j 1).val < 1 := (j 1).isLt
  have hj2 : (j 2).val < 1 := (j 2).isLt
  have hemb : ((cfg0.win 2).blk t).view.emb j = (ix3 (ent t) 0 0 : S8x1x1.Idx) := by
    funext a; apply Fin.ext
    match a with
    | ⟨0, _⟩ => show win0_2.index t (0 : Fin 3) * 1 + 1 * (j 0).val = t.val; rw [e0]; omega
    | ⟨1, _⟩ => show win0_2.index t (1 : Fin 3) * 1 + 1 * (j 1).val = 0; rw [e1]; omega
    | ⟨2, _⟩ => show win0_2.index t (2 : Fin 3) * 1 + 1 * (j 2).val = 0; rw [e2]; omega
  rw [View.read_apply, hemb]
  show out0_2 (F := Ideal) _ _ _ = ∑ n : Fin 4096, Cert.Chamfer.rowTerm _ _ (ent t) n
  rw [BodyValue.out0_2_apply, Cert.Chamfer.blockRowSum_pad]

/-- What point t writes back to the second result is block t of the column terms. -/
private theorem flushed3_eq (c : Dev nD) (t : Fin cfg0.N) :
    (dats m 0 c).flushed 3 t = ((cfg0.win 3).blk t).view.read (Elt Ideal) (colTerms m c) := by
  show (cfg0.win 3).cut (grid0.coords t) ((dats m 0 c).after 3 t) = _
  rw [after0_3, iblk0_eq, iblk1_eq]
  funext j
  obtain ⟨-, -, -, -, -, -, -, -, -, e0, e1, e2⟩ := idx_facts t
  have hj0 : (j 0).val < 1 := (j 0).isLt
  have hj1 : (j 1).val < 1 := (j 1).isLt
  have hj2 : (j 2).val < 4096 := (j 2).isLt
  have hemb : ((cfg0.win 3).blk t).view.emb j = (ix3 (ent t) 0 (⟨(j 2).val, hj2⟩ : Fin 4096) : S8x1x4096.Idx) := by
    funext a; apply Fin.ext
    match a with
    | ⟨0, _⟩ => show win0_3.index t (0 : Fin 3) * 1 + 1 * (j 0).val = t.val; rw [e0]; omega
    | ⟨1, _⟩ => show win0_3.index t (1 : Fin 3) * 1 + 1 * (j 1).val = 0; rw [e1]; omega
    | ⟨2, _⟩ => show win0_3.index t (2 : Fin 3) * 4096 + 1 * (j 2).val = (j 2).val; rw [e2]; omega
  have hx : (cfg0.win 3).xinj (grid0.coords t) j = (ix3 0 0 (⟨(j 2).val, hj2⟩ : Fin 4096) : S1x1x4096.Idx) := by
    funext a; apply Fin.ext
    match a with
    | ⟨0, _⟩ => show (j 0).val = 0; omega
    | ⟨1, _⟩ => show (j 1).val = 0; omega
    | ⟨2, _⟩ => rfl
  rw [View.read_apply, hemb]
  show out0_3 (F := Ideal) _ _ ((cfg0.win 3).xinj (grid0.coords t) j) = Cert.Chamfer.colTerm _ _ (ent t) (⟨(j 2).val, hj2⟩ : Fin 4096)
  rw [hx, BodyValue.out0_3_apply, Cert.Chamfer.blockCol_pad]

/-- An index of the first result is in point t's block iff each coordinate is in the block's range on its axis. -/
private theorem mem_blk2 (t : Fin cfg0.N) (i : S8x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_call0_v3_0).slice (win0_2.rect t)).set ↔ _
  rw [View.set_slice_whole, Rect.mem_set_unit]
  exact Iff.rfl

/-- An index of the second result is in point t's block iff each coordinate is in the block's range on its axis. -/
private theorem mem_blk3 (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_call0_v3_1).slice (win0_3.rect t)).set ↔ _
  rw [View.set_slice_whole, Rect.mem_set_unit]
  exact Iff.rfl

/-- Index (b, 0, 0) of the first result is in point b's block, and every point writes back. -/
private theorem cover2 (i : S8x1x1.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 1 := (i 2).isLt
  obtain ⟨t, ht⟩ : ∃ t : Fin cfg0.N, t.val = (i 0).val := ⟨⟨(i 0).val, lt_of_lt_of_eq hi0 N_0.symm⟩, rfl⟩
  refine ⟨t, flush0_2 t, ?_⟩
  rw [mem_blk2]
  obtain ⟨-, -, -, -, -, -, e0, e1, e2, -⟩ := idx_facts t
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 1 ≤ (i 1).val ∧ (i 1).val < win0_2.index t (1 : Fin 3) * 1 + 1; rw [e1]; omega
  | ⟨2, _⟩ => show win0_2.index t (2 : Fin 3) * 1 ≤ (i 2).val ∧ (i 2).val < win0_2.index t (2 : Fin 3) * 1 + 1; rw [e2]; omega

/-- Index (b, 0, j) of the second result is in point b's block, and every point writes back. -/
private theorem cover3 (i : S8x1x4096.Idx) : ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 4096 := (i 2).isLt
  obtain ⟨t, ht⟩ : ∃ t : Fin cfg0.N, t.val = (i 0).val := ⟨⟨(i 0).val, lt_of_lt_of_eq hi0 N_0.symm⟩, rfl⟩
  refine ⟨t, flush0_3 t, ?_⟩
  rw [mem_blk3]
  obtain ⟨-, -, -, -, -, -, -, -, -, e0, e1, e2⟩ := idx_facts t
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 1 ≤ (i 1).val ∧ (i 1).val < win0_3.index t (1 : Fin 3) * 1 + 1; rw [e1]; omega
  | ⟨2, _⟩ => show win0_3.index t (2 : Fin 3) * 4096 ≤ (i 2).val ∧ (i 2).val < win0_3.index t (2 : Fin 3) * 4096 + 4096; rw [e2]; omega

/-- The first result after the run: at (b,0,0) the sum over entry b's points of their clamped row minima. -/
theorem final2 (c : Dev nD) :
    (dats m 0 c).arrAt 2 cfg0.N = (fun i : S8x1x1.Idx => ∑ n : Fin 4096,
      Cert.Chamfer.rowTerm (m ((c : Thread nD τ).loc main_arg0)) (m ((c : Thread nD τ).loc main_arg1)) (i 0) n) :=
  (dats m 0 c).arrAt_eq_of_cover 2 (rowSums m c) (fun t _ => flushed2_eq m c t) cover2

/-- The second result after the run: at (b,0,j) the clamped column minimum of entry b at column j. -/
theorem final3 (c : Dev nD) :
    (dats m 0 c).arrAt 3 cfg0.N = (fun i : S8x1x4096.Idx =>
      Cert.Chamfer.colTerm (m ((c : Thread nD τ).loc main_arg0)) (m ((c : Thread nD τ).loc main_arg1)) (i 0) (i 2)) :=
  (dats m 0 c).arrAt_eq_of_cover 3 (colTerms m c) (fun t _ => flushed3_eq m c t) cover3

end Cert.KernelIdeal.ArrayValue

end
-- ==== Proof.HostTail.lean ====
/-
  The host operations after the kernel: the first result summed over its 8 elements and divided by 8 and then by 4096, the
  second summed over its 8 · 4096 elements and divided by 32768, and the larger of the two quotients.  The literals are the
  real numbers 8, 4096 and 32768; a sum from the initial value 0 is the sum.
-/
import proofs.«144117_g43800076485249_cont_8to1_b_1262_21_alg».proof.Proof.Gen.KernelIdeal.Frame
import proofs.«144117_g43800076485249_cont_8to1_b_1262_21_alg».proof.Proof.Spec
import Idealize.ShloMosaic.Lib.Pipeline.Value
import Idealize.ShloMosaic.Lib.StableHlo.Run
import Idealize.ShloMosaic.PureOps.Ideal.Laws

noncomputable section

open scoped BigOperators

namespace Cert.KernelIdeal.TailValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The pattern 0x41000000 is the real number 8 (exponent 130, fraction 0: 2 ^ 23 · 2 ^ (130 - 127 - 23) = 2 ^ 3). -/
private theorem lit_eight : Ideal.ofBits .f32 0x41000000#32 = ((8 : ℝ) : EReal) := by
  simp [Ideal.ofBits, Ideal.ieee]
  rw [← EReal.coe_mul]
  norm_num

/-- The pattern 0x45800000 is the real number 4096 (exponent 139, fraction 0: 2 ^ 12). -/
private theorem lit_4096 : Ideal.ofBits .f32 0x45800000#32 = ((4096 : ℝ) : EReal) := by
  simp [Ideal.ofBits, Ideal.ieee]
  rw [← EReal.coe_mul]
  norm_num

/-- The pattern 0x47000000 is the real number 32768 (exponent 142, fraction 0: 2 ^ 15). -/
private theorem lit_32768 : Ideal.ofBits .f32 0x47000000#32 = ((32768 : ℝ) : EReal) := by
  simp [Ideal.ofBits, Ideal.ieee]
  rw [← EReal.coe_mul]
  norm_num

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over the indices of an 8 × 1 × 1 array is the sum over its first coordinate. -/
private theorem sum_S8x1x1 (A : S8x1x1.Idx → EReal) : ∑ i : S8x1x1.Idx, A i = ∑ b : Fin 8, A (ix3 b 0 0) := by
  refine (sum_idx3 (n0 := 8) (n1 := 1) (n2 := 1) A).trans ?_
  refine Finset.sum_congr rfl fun b _ => ?_
  rw [Fin.sum_univ_one, Fin.sum_univ_one]

/-- A sum over the indices of an 8 × 1 × 4096 array is the double sum over its first and last coordinates. -/
private theorem sum_S8x1x4096 (A : S8x1x4096.Idx → EReal) :
    ∑ i : S8x1x4096.Idx, A i = ∑ b : Fin 8, ∑ j : Fin 4096, A (ix3 b 0 j) := by
  refine (sum_idx3 (n0 := 8) (n1 := 1) (n2 := 4096) A).trans ?_
  refine Finset.sum_congr rfl fun b _ => ?_
  rw [Fin.sum_univ_one]

/-- The program's result buffer after the host tail, from the two result arrays the kernel left. -/
theorem tail_value (c : Dev nD) (A2 : S8x1x1.Idx → EReal) (A3 : S8x1x4096.Idx → EReal)
    (h2 : (dats m 0 c).arrAt 2 cfg0.N = A2) (h3 : (dats m 0 c).arrAt 3 cfg0.N = A3) :
    Pipeline.afterTail₀ cfgs (dats m) 0 (V0 m) [hostOps1] c main_v0
      = (fun _ => Cert.Chamfer.tailValue (fun b => A2 (ix3 b 0 0)) (fun b j => A3 (ix3 b 0 j))) := by
  -- what the tail reads at the kernel's two result arrays
  have e2 : Pipeline.withArrays (cfgs 0).spec c (V0 m c) (fun w => (dats m 0 c).arrAt w (cfgs 0).N)
      (Proc.devRef .tc main_call0_v3_0) = A2 :=
    (Pipeline.withArrays_arr spec0 launch0.win.arr_inj c _ _ 2).trans h2
  have e3 : Pipeline.withArrays (cfgs 0).spec c (V0 m c) (fun w => (dats m 0 c).arrAt w (cfgs 0).N)
      (Proc.devRef .tc main_call0_v3_1) = A3 :=
    (Pipeline.withArrays_arr spec0 launch0.win.arr_inj c _ _ 3).trans h3
  -- the eleven operations, each at its own result buffer
  unfold Pipeline.afterTail₀
  show StableHlo.after hostOps1 _ (Proc.devRef .tc main_v0) = _
  after_results
  simp only [cast_eq]
  rw [e2, e3]
  -- the arithmetic at the scalar's one index
  funext j
  simp only [maximumf_apply, Host.divf, Host.reduceAdd, constant_apply, Ideal.maximumf_def, Ideal.hostDivf_def,
    Ideal.hostReduceAdd_def]
  rw [Ideal.hostReduceAdd_total _ (fun b => b.elim0), Ideal.hostReduceAdd_total _ (fun b => b.elim0),
    Ideal.ofBits_zero_f32, zero_add, zero_add, sum_S8x1x1, sum_S8x1x4096, lit_eight, lit_4096, lit_32768]
  rfl

end Cert.KernelIdeal.TailValue

end
-- ==== Proof.SpecAlgebra.lean ====
/-
  On finite clouds the kernel's value is the reference's.  Three facts carry it.  (1) For a finite constant c the maps
  t ↦ t + c and t ↦ max t 0 are monotone and fix ⊤, so they commute with an infimum over a finite index set; hence
  max ((inf_m (s + |q_m|²)) + |p|²) 0 = inf_m max ((s + |q_m|²) + |p|²) 0.  (2) On real entries
  Σ_d (p_d · (−2)) · q_d = −(2 · Σ_d p_d q_d), so (s + |q|²) + |p|² = (|p|² + |q|²) − 2⟨p,q⟩, and ⟨p,q⟩ = ⟨q,p⟩ turns the
  column terms into the second direction's distances.  (3) Every quantity is then a real number, division by a nonzero
  real constant is multiplication by its reciprocal, which distributes over finite sums of reals, and 32768 = 8 · 4096.
-/
import proofs.«144117_g43800076485249_cont_8to1_b_1262_21_alg».proof.Proof.Spec

noncomputable section

open scoped BigOperators

namespace Cert.Chamfer

open Idealize.ShloMosaic Idealize.ShloMosaic.ValueIdx

/-! ## Extended reals: sums, infima and quotients of real numbers -/

/-- A finite sum of real numbers, taken in the extended reals, is the real sum. -/
private theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Adding a real constant commutes with a finite infimum: t ↦ t + c is monotone and fixes ⊤. -/
private theorem inf_add_coe {ι : Type*} (s : Finset ι) (f : ι → EReal) (c : ℝ) :
    s.inf f + (c : EReal) = s.inf fun i => f i + (c : EReal) :=
  Finset.apply_inf_eq_inf_comp_of_linearOrder (fun t : EReal => t + (c : EReal))
    (fun _ _ h => add_le_add h le_rfl) (EReal.top_add_coe c)

/-- Clamping at 0 commutes with a finite infimum: t ↦ max t 0 is monotone and fixes ⊤. -/
private theorem inf_max_zero {ι : Type*} (s : Finset ι) (f : ι → EReal) :
    max (s.inf f) 0 = s.inf fun i => max (f i) 0 :=
  Finset.apply_inf_eq_inf_comp_of_linearOrder (fun t : EReal => max t 0)
    (fun _ _ h => max_le_max h le_rfl) (max_eq_left le_top)

/-- The infimum of real numbers over a nonempty finite set is one of them, hence real. -/
private theorem inf_real {ι : Type*} (s : Finset ι) (hs : s.Nonempty) (f : ι → EReal)
    (hf : ∀ i, ∃ r : ℝ, f i = (r : EReal)) : ∃ r : ℝ, s.inf f = (r : EReal) := by
  obtain ⟨i, -, h⟩ := Finset.exists_mem_eq_inf s hs f
  obtain ⟨r, hr⟩ := hf i
  exact ⟨r, h.trans hr⟩

/-- A real number clamped at 0 is real. -/
private theorem max_zero_real (a : ℝ) : ∃ r : ℝ, max (a : EReal) 0 = (r : EReal) := by
  rcases max_choice (a : EReal) 0 with h | h
  · exact ⟨a, h⟩
  · exact ⟨0, h⟩

/-- The quotient of two real numbers, the divisor not 0, is the real quotient. -/
private theorem div_coe_coe (a c : ℝ) (hc : c ≠ 0) :
    Ideal.div (a : EReal) (c : EReal) = ((a / c : ℝ) : EReal) := by
  rw [Ideal.div_coe hc, ← EReal.coe_mul, mul_one_div]

/-- Dividing a double sum by a and then by c is dividing the inner sums by c, summing, and dividing by a. -/
private theorem tail_rows {ι κ : Type*} [Fintype ι] [Fintype κ] (N : ι → κ → ℝ) (a c : ℝ) (ha : a ≠ 0)
    (hc : c ≠ 0) :
    Ideal.div (Ideal.div (∑ i, ∑ j, ((N i j : ℝ) : EReal)) (a : EReal)) (c : EReal)
      = Ideal.div (∑ i, Ideal.div (∑ j, ((N i j : ℝ) : EReal)) (c : EReal)) (a : EReal) := by
  simp only [coe_sum, div_coe_coe _ _ ha, div_coe_coe _ _ hc]
  rw [← Finset.sum_div, div_right_comm]

/-- Dividing a double sum by a · c is dividing the inner sums by c, summing, and dividing by a. -/
private theorem tail_cols {ι κ : Type*} [Fintype ι] [Fintype κ] (N : ι → κ → ℝ) (a c : ℝ) (ha : a ≠ 0)
    (hc : c ≠ 0) :
    Ideal.div (∑ i, ∑ j, ((N i j : ℝ) : EReal)) ((a * c : ℝ) : EReal)
      = Ideal.div (∑ i, Ideal.div (∑ j, ((N i j : ℝ) : EReal)) (c : EReal)) (a : EReal) := by
  simp only [coe_sum, div_coe_coe _ _ ha, div_coe_coe _ _ hc, div_coe_coe _ _ (mul_ne_zero ha hc)]
  rw [← Finset.sum_div, div_div, mul_comm c a]

/-! ## The clouds' quantities as real numbers -/

/-- A cloud of real numbers. -/
private abbrev RCloud := (⟨3, ![8, 4096, 3]⟩ : Shape).Idx → ℝ

private theorem sqn_coe (x : Cloud) (xr : RCloud) (hx : ∀ i, x i = (xr i : EReal)) (b : Fin 8) (n : Fin 4096) :
    sqn x b n = ((∑ d : Fin 3, xr (ix3 b n d) * xr (ix3 b n d) : ℝ) : EReal) := by
  simp only [sqn, hx, ← EReal.coe_mul, coe_sum]

private theorem inner_coe (x y : Cloud) (xr yr : RCloud) (hx : ∀ i, x i = (xr i : EReal))
    (hy : ∀ i, y i = (yr i : EReal)) (b : Fin 8) (n m : Fin 4096) :
    inner x y b n m = ((∑ d : Fin 3, xr (ix3 b n d) * yr (ix3 b m d) : ℝ) : EReal) := by
  simp only [inner, hx, hy, ← EReal.coe_mul, coe_sum]

private theorem scaled_coe (x y : Cloud) (xr yr : RCloud) (hx : ∀ i, x i = (xr i : EReal))
    (hy : ∀ i, y i = (yr i : EReal)) (b : Fin 8) (n m : Fin 4096) :
    scaled x y b n m = ((∑ d : Fin 3, (xr (ix3 b n d) * (-2)) * yr (ix3 b m d) : ℝ) : EReal) := by
  simp only [scaled, hx, hy, ← EReal.coe_mul, coe_sum]

/-- The kernel's row entry is the reference's squared distance before clamping. -/
private theorem row_point (x y : Cloud) (xr yr : RCloud) (hx : ∀ i, x i = (xr i : EReal))
    (hy : ∀ i, y i = (yr i : EReal)) (b : Fin 8) (n m : Fin 4096) :
    (scaled x y b n m + sqn y b m) + sqn x b n
      = (sqn x b n + sqn y b m) - ((2 : ℝ) : EReal) * inner x y b n m := by
  rw [scaled_coe x y xr yr hx hy, sqn_coe x xr hx, sqn_coe y yr hy, inner_coe x y xr yr hx hy,
    ← EReal.coe_add, ← EReal.coe_add, ← EReal.coe_add, ← EReal.coe_mul, ← EReal.coe_sub]
  congr 1
  simp only [Fin.sum_univ_three]
  ring

/-- The kernel's column entry is the squared distance of the second direction before clamping:
    the inner product is symmetric. -/
private theorem col_point (x y : Cloud) (xr yr : RCloud) (hx : ∀ i, x i = (xr i : EReal))
    (hy : ∀ i, y i = (yr i : EReal)) (b : Fin 8) (n m : Fin 4096) :
    (scaled x y b n m + sqn x b n) + sqn y b m
      = (sqn y b m + sqn x b n) - ((2 : ℝ) : EReal) * inner y x b m n := by
  rw [scaled_coe x y xr yr hx hy, sqn_coe x xr hx, sqn_coe y yr hy, inner_coe y x yr xr hy hx,
    ← EReal.coe_add, ← EReal.coe_add, ← EReal.coe_add, ← EReal.coe_mul, ← EReal.coe_sub]
  congr 1
  simp only [Fin.sum_univ_three]
  ring

/-- A squared distance of finite clouds is real. -/
private theorem dist_real (x y : Cloud) (xr yr : RCloud) (hx : ∀ i, x i = (xr i : EReal))
    (hy : ∀ i, y i = (yr i : EReal)) (b : Fin 8) (n m : Fin 4096) : ∃ r : ℝ, dist x y b n m = (r : EReal) := by
  rw [dist, sqn_coe x xr hx, sqn_coe y yr hy, inner_coe x y xr yr hx hy, ← EReal.coe_add, ← EReal.coe_mul,
    ← EReal.coe_sub]
  exact max_zero_real _

/-- A nearest-neighbour distance of finite clouds is real. -/
private theorem nearest_real (x y : Cloud) (xr yr : RCloud) (hx : ∀ i, x i = (xr i : EReal))
    (hy : ∀ i, y i = (yr i : EReal)) (b : Fin 8) (n : Fin 4096) : ∃ r : ℝ, nearest x y b n = (r : EReal) :=
  inf_real _ Finset.univ_nonempty _ fun m => dist_real x y xr yr hx hy b n m

/-! ## The kernel's terms are the reference's nearest-neighbour distances -/

private theorem rowTerm_eq_nearest (x y : Cloud) (xr yr : RCloud) (hx : ∀ i, x i = (xr i : EReal))
    (hy : ∀ i, y i = (yr i : EReal)) (b : Fin 8) (n : Fin 4096) : rowTerm x y b n = nearest x y b n := by
  unfold rowTerm nearest
  rw [sqn_coe x xr hx b n, inf_add_coe, inf_max_zero]
  refine Finset.inf_congr rfl fun m _ => ?_
  rw [← sqn_coe x xr hx b n, row_point x y xr yr hx hy, dist]

private theorem colTerm_eq_nearest (x y : Cloud) (xr yr : RCloud) (hx : ∀ i, x i = (xr i : EReal))
    (hy : ∀ i, y i = (yr i : EReal)) (b : Fin 8) (m : Fin 4096) : colTerm x y b m = nearest y x b m := by
  unfold colTerm nearest
  rw [sqn_coe y yr hy b m, inf_add_coe, inf_max_zero]
  refine Finset.inf_congr rfl fun n _ => ?_
  rw [← sqn_coe y yr hy b m, col_point x y xr yr hx hy, dist]

/-- On finite clouds the kernel's value is the reference's. -/
theorem kernelValue_eq_chamfer (x y : Cloud) (hx : Finite x) (hy : Finite y) : kernelValue x y = chamfer x y := by
  choose xr hxr using hx
  choose yr hyr using hy
  choose N hN using fun b n => nearest_real x y xr yr hxr hyr b n
  choose M hM using fun b n => nearest_real y x yr xr hyr hxr b n
  unfold kernelValue tailValue chamfer oneway
  simp only [rowTerm_eq_nearest x y xr yr hxr hyr, colTerm_eq_nearest x y xr yr hxr hyr, hN, hM]
  rw [tail_rows N 8 4096 (by norm_num) (by norm_num), show (32768 : ℝ) = 8 * 4096 by norm_num,
    tail_cols M 8 4096 (by norm_num) (by norm_num)]

end Cert.Chamfer

end
-- ==== Proof.FinitePre.lean ====
/-
  The precondition says every entry of both clouds has absolute value below +∞; on the extended reals that is: every
  entry is a real number.
-/
import proofs.«144117_g43800076485249_cont_8to1_b_1262_21_alg».proof.Pre_finite_inputs
import proofs.«144117_g43800076485249_cont_8to1_b_1262_21_alg».proof.Proof.Gen.Pre_finite_inputs
import proofs.«144117_g43800076485249_cont_8to1_b_1262_21_alg».proof.Proof.Spec
import Idealize.ShloMosaic.Lib.ReduceAll
import Idealize.ShloMosaic.Lib.ValueIdx

noncomputable section

namespace Cert.Chamfer

open Idealize.ShloMosaic Idealize.ShloMosaic.ValueIdx

/-- The pattern of +∞ denotes the top element. -/
private theorem posInf_eq_top : Ideal.ofBits .f32 0x7F800000#32 = (⊤ : EReal) := by
  simp [Ideal.ofBits, Ideal.ieee]

/-- An extended real whose absolute value max a (−a) is below ⊤ is neither ⊥ (where −a = ⊤) nor ⊤: it is a real. -/
private theorem real_of_abs_lt_top (a : EReal) (h : max a (-a) < ⊤) : ∃ r : ℝ, a = (r : EReal) := by
  induction a using EReal.rec with
  | bot => simp at h
  | coe r => exact ⟨r, rfl⟩
  | top => simp at h

/-- The strict comparison yields the bit 1 only where the strict inequality holds. -/
private theorem lt_of_cmp_olt (a b : EReal) (h : Ideal.cmp .olt a b = 1#1) : a < b := by
  unfold Ideal.cmp at h
  by_contra hn
  simp [hn] at h

/-- A cloud whose every entry compares below +∞ in absolute value is finite. -/
private theorem finite_of_all (x : FVec Ideal Cert.Pre_finite_inputs.S8x4096x3 .f32)
    (hx : ∀ i, FloatOps.cmpf (F := Ideal) (φ := .f32) .olt (FloatOps.hostAbsf (x i)) (FloatOps.ofBits .f32 0x7F800000#32) = 1#1) :
    Finite x := by
  intro i
  have h1 := hx i
  change Ideal.cmp .olt (max (x i) (-(x i))) (Ideal.ofBits .f32 0x7F800000#32) = 1#1 at h1
  rw [posInf_eq_top] at h1
  exact real_of_abs_lt_top _ (lt_of_cmp_olt _ _ h1)

/-- Both clouds are finite when the printed precondition holds of them. -/
theorem finite_of_pre (x y : FVec Ideal Cert.Pre_finite_inputs.S8x4096x3 .f32)
    (h : Cert.Pre_finite_inputs.fn (F := Ideal) x y = fun _ => 1#1) : Finite x ∧ Finite y := by
  haveI : Subsingleton Cert.Pre_finite_inputs.S_.Idx := ⟨fun a b => funext fun d => d.elim0⟩
  have h0 := congrFun h ValueIdx.ix0
  dsimp only [Cert.Pre_finite_inputs.fn] at h0
  change IntOp.andi _ _ = 1#1 at h0
  obtain ⟨hx, hy⟩ := IntOp.andi_eq_one.1 h0
  exact ⟨finite_of_all x fun i => Host.reduce_andi_all _ _ _ _ _ hx i,
    finite_of_all y fun i => Host.reduce_andi_all _ _ _ _ _ hy i⟩

end Cert.Chamfer

end
-- ==== Proof.KernelRun.lean ====
/-
  The kernel program's run, read: under the precondition it ends with its result buffer at the chamfer value of the two
  argument clouds and the arguments unchanged.  The frame run leaves the result buffer at what the host tail makes of the
  kernel's two result arrays; those are the row sums and column terms of the clouds (Arrays), the tail divides and takes
  the maximum (HostTail), and on finite clouds that value is the reference's (SpecAlgebra).
-/
import proofs.«144117_g43800076485249_cont_8to1_b_1262_21_alg».proof.Defs
import proofs.«144117_g43800076485249_cont_8to1_b_1262_21_alg».proof.Proof.Gen.KernelIdeal.Frame
import proofs.«144117_g43800076485249_cont_8to1_b_1262_21_alg».proof.Proof.Arrays
import proofs.«144117_g43800076485249_cont_8to1_b_1262_21_alg».proof.Proof.HostTail
import proofs.«144117_g43800076485249_cont_8to1_b_1262_21_alg».proof.Proof.SpecAlgebra
import proofs.«144117_g43800076485249_cont_8to1_b_1262_21_alg».proof.Proof.FinitePre

noncomputable section

open scoped BigOperators

namespace Cert.KernelIdeal.RunValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The result buffer after the host tail is the kernel's value of the argument clouds. -/
theorem tail_eq (c : Dev nD) :
    Pipeline.afterTail₀ cfgs (dats m) 0 (V0 m) [hostOps1] c main_v0
      = (fun _ => Cert.Chamfer.kernelValue (m ((c : Thread nD τ).loc main_arg0)) (m ((c : Thread nD τ).loc main_arg1))) := by
  rw [TailValue.tail_value m c
    (fun i : S8x1x1.Idx => ∑ n : Fin 4096,
      Cert.Chamfer.rowTerm (m ((c : Thread nD τ).loc main_arg0)) (m ((c : Thread nD τ).loc main_arg1)) (i 0) n)
    (fun i : S8x1x4096.Idx =>
      Cert.Chamfer.colTerm (m ((c : Thread nD τ).loc main_arg0)) (m ((c : Thread nD τ).loc main_arg1)) (i 0) (i 2))
    (ArrayValue.final2 m c) (ArrayValue.final3 m c)]
  rfl

/-- THE RUN: under the precondition the result is the chamfer value of the arguments, and the arguments are kept. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v0)
          = (fun _ => Cert.Chamfer.chamfer (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
      obtain ⟨hx, hy⟩ := Cert.Chamfer.finite_of_pre _ _ (hpre c)
      refine ⟨?_, ?_, ?_⟩
      · rw [(h c).2 main_v0 (Pipeline.mem_restRefs_of main_v0 (by decide) (by decide)), tail_eq m c,
          Cert.Chamfer.kernelValue_eq_chamfer _ _ hx hy]
      · exact ((h c).2 main_arg0 (Pipeline.mem_restRefs_of main_arg0 (by decide) (by decide))).trans (W_main_arg0 m (dats m) c)
      · exact ((h c).2 main_arg1 (Pipeline.mem_restRefs_of main_arg1 (by decide) (by decide))).trans (W_main_arg1 m (dats m) c))
    (run_main m ρ)

end Cert.KernelIdeal.RunValue

end
-- ==== Proof.RefValue.lean ====
/-
  The reference program's result is the chamfer value of its two arguments: stage by stage, the squared norms are sums
  over the 3 coordinates, the inner products sums of products, the distance max ((|p|² + |q|²) − 2·⟨p,q⟩) 0, the minimum
  over the other cloud a minimum-reduction from +∞ (an infimum), each mean a sum from 0 divided by the count, and the
  second direction the same with the clouds exchanged.
-/
import proofs.«144117_g43800076485249_cont_8to1_b_1262_21_alg».proof.Proof.Gen.ReferenceIdeal.Read
import proofs.«144117_g43800076485249_cont_8to1_b_1262_21_alg».proof.Proof.Spec
import Idealize.ShloMosaic.Lib.ValueIdx
import Idealize.ShloMosaic.Lib.ValueIdxCoords
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen

/-! ## The literals -/

/-- The bit pattern of +∞. -/
private theorem lit_top : Ideal.ofBits .f32 0x7F800000#32 = (⊤ : EReal) := by
  simp [Ideal.ofBits, Ideal.ieee]

/-- The bit pattern of 2. -/
private theorem lit_two : Ideal.ofBits .f32 0x40000000#32 = ((2 : ℝ) : EReal) := by
  simp [Ideal.ofBits, Ideal.ieee]
  rw [← EReal.coe_mul]
  norm_num

/-- The bit pattern of 4096. -/
private theorem lit_4096 : Ideal.ofBits .f32 0x45800000#32 = ((4096 : ℝ) : EReal) := by
  simp [Ideal.ofBits, Ideal.ieee]
  rw [← EReal.coe_mul]
  norm_num

/-- The bit pattern of 8. -/
private theorem lit_eight : Ideal.ofBits .f32 0x41000000#32 = ((8 : ℝ) : EReal) := by
  simp [Ideal.ofBits, Ideal.ieee]
  rw [← EReal.coe_mul]
  norm_num

/-! ## Sums and minima over an axis -/

/-- A sum over the rank-1 index set is the sum over its coordinate. -/
private theorem sum_idx1 (f : S8.Idx → EReal) : ∑ j, f j = ∑ b : Fin 8, f (ix1 b) := by
  refine Fintype.sum_equiv (⟨fun j => j 0, fun b => ix1 b, fun j => (eq_ix1 j).symm, fun _ => rfl⟩ : S8.Idx ≃ Fin 8) _ _
    (fun j => ?_)
  exact congrArg f (eq_ix1 j)

/-- Dropping the last axis of (entry, point, point) leaves (entry, point). -/
private theorem reduces_d2 : S8x4096x4096.Reduces [2] S8x4096 := by decide

/-- The index over (b, n) whose last coordinate is m. -/
private theorem lift_eq (b : Fin 8) (n m : Fin 4096) : reduces_d2.lift (ix2 b n) m = ix3 b n m := by
  funext c
  apply Fin.ext
  show Shape.Reduces.liftVal reduces_d2 (ix2 b n) m.val c = (ix3 b n m c).val
  unfold Shape.Reduces.liftVal
  match c with
  | ⟨0, _⟩ => rfl
  | ⟨1, _⟩ => rfl
  | ⟨2, _⟩ => rfl

/-- A minimum-reduction of the last axis from +∞ is the infimum over that axis. -/
private theorem minReduce_at (y : S8x4096x4096.Idx → EReal) (b : Fin 8) (n : Fin 4096) :
    Host.reduce (FloatOps.minimumf (F := Ideal) (φ := .f32)) y (constant (F := Ideal) S_ .f32 0x7F800000#32)
        reducesTo_S8x4096x4096_S8x4096_d2 h_S_ (ix2 b n)
      = Finset.univ.inf fun m : Fin 4096 => y (ix3 b n m) := by
  rw [Host.reduce_eq_fold_single (FloatOps.minimumf (F := Ideal) (φ := .f32)) y _ reducesTo_S8x4096x4096_S8x4096_d2
    reduces_d2 h_S_ (ix2 b n)]
  have hy : (y ∘ reduces_d2.lift (ix2 b n)) = fun m : Fin 4096 => y (ix3 b n m) :=
    funext fun m => congrArg y (lift_eq b n m)
  rw [hy]
  show (Finset.univ : Finset (Fin 4096)).fold (fun p q : EReal => min p q) (Ideal.ofBits .f32 0x7F800000#32) _ = _
  rw [lit_top]
  rfl

/-! ## The composed index functions at explicit coordinates -/

private theorem idx_v1 (b : Fin 8) (n : Fin 4096) (k : Fin 3) : Read.idx_main_v1 (ix2 b n) k = ix3 b n k := by
  funext a; match a with | ⟨0, _⟩ => rfl | ⟨1, _⟩ => rfl | ⟨2, _⟩ => rfl

private theorem idx_v2 (b : Fin 8) (n : Fin 4096) (z : Fin 1) : Read.idx_main_v2 (ix3 b n z) = ix2 b n := by
  funext a; match a with | ⟨0, _⟩ => rfl | ⟨1, _⟩ => rfl

private theorem idx_v4 (b : Fin 8) (n : Fin 4096) (k : Fin 3) : Read.idx_main_v4 (ix2 b n) k = ix3 b n k := by
  funext a; match a with | ⟨0, _⟩ => rfl | ⟨1, _⟩ => rfl | ⟨2, _⟩ => rfl

private theorem idx_v5 (b : Fin 8) (z : Fin 1) (m : Fin 4096) : Read.idx_main_v5 (ix3 b z m) = ix2 b m := by
  funext a; match a with | ⟨0, _⟩ => rfl | ⟨1, _⟩ => rfl

private theorem lidx_v6 (b : Fin 8) (n m : Fin 4096) (k : Fin 3) : Read.lidx_main_v6 (ix3 b n m) k = ix3 b n k := by
  funext a; match a with | ⟨0, _⟩ => rfl | ⟨1, _⟩ => rfl | ⟨2, _⟩ => rfl

private theorem ridx_v6 (b : Fin 8) (n m : Fin 4096) (k : Fin 3) : Read.ridx_main_v6 (ix3 b n m) k = ix3 b m k := by
  funext a; match a with | ⟨0, _⟩ => rfl | ⟨1, _⟩ => rfl | ⟨2, _⟩ => rfl

private theorem idx_v7 (b : Fin 8) (n m : Fin 4096) : Read.idx_main_v7 (ix3 b n m) = ix3 b n (0 : Fin 1) := by
  funext a; match a with | ⟨0, _⟩ => rfl | ⟨1, _⟩ => rfl | ⟨2, _⟩ => rfl

private theorem idx_v8 (b : Fin 8) (n m : Fin 4096) : Read.idx_main_v8 (ix3 b n m) = ix3 b (0 : Fin 1) m := by
  funext a; match a with | ⟨0, _⟩ => rfl | ⟨1, _⟩ => rfl | ⟨2, _⟩ => rfl

private theorem idx_v16 (b : Fin 8) (k : Fin 4096) : Read.idx_main_v16 (ix1 b) k = ix2 b k := by
  funext a; match a with | ⟨0, _⟩ => rfl | ⟨1, _⟩ => rfl

private theorem idx_v22 (b : Fin 8) (n : Fin 4096) (k : Fin 3) : Read.idx_main_v22 (ix2 b n) k = ix3 b n k := by
  funext a; match a with | ⟨0, _⟩ => rfl | ⟨1, _⟩ => rfl | ⟨2, _⟩ => rfl

private theorem idx_v23 (b : Fin 8) (n : Fin 4096) (z : Fin 1) : Read.idx_main_v23 (ix3 b n z) = ix2 b n := by
  funext a; match a with | ⟨0, _⟩ => rfl | ⟨1, _⟩ => rfl

private theorem idx_v25 (b : Fin 8) (n : Fin 4096) (k : Fin 3) : Read.idx_main_v25 (ix2 b n) k = ix3 b n k := by
  funext a; match a with | ⟨0, _⟩ => rfl | ⟨1, _⟩ => rfl | ⟨2, _⟩ => rfl

private theorem idx_v26 (b : Fin 8) (z : Fin 1) (m : Fin 4096) : Read.idx_main_v26 (ix3 b z m) = ix2 b m := by
  funext a; match a with | ⟨0, _⟩ => rfl | ⟨1, _⟩ => rfl

private theorem lidx_v27 (b : Fin 8) (n m : Fin 4096) (k : Fin 3) : Read.lidx_main_v27 (ix3 b n m) k = ix3 b n k := by
  funext a; match a with | ⟨0, _⟩ => rfl | ⟨1, _⟩ => rfl | ⟨2, _⟩ => rfl

private theorem ridx_v27 (b : Fin 8) (n m : Fin 4096) (k : Fin 3) : Read.ridx_main_v27 (ix3 b n m) k = ix3 b m k := by
  funext a; match a with | ⟨0, _⟩ => rfl | ⟨1, _⟩ => rfl | ⟨2, _⟩ => rfl

private theorem idx_v28 (b : Fin 8) (n m : Fin 4096) : Read.idx_main_v28 (ix3 b n m) = ix3 b n (0 : Fin 1) := by
  funext a; match a with | ⟨0, _⟩ => rfl | ⟨1, _⟩ => rfl | ⟨2, _⟩ => rfl

private theorem idx_v29 (b : Fin 8) (n m : Fin 4096) : Read.idx_main_v29 (ix3 b n m) = ix3 b (0 : Fin 1) m := by
  funext a; match a with | ⟨0, _⟩ => rfl | ⟨1, _⟩ => rfl | ⟨2, _⟩ => rfl

private theorem idx_v37 (b : Fin 8) (k : Fin 4096) : Read.idx_main_v37 (ix1 b) k = ix2 b k := by
  funext a; match a with | ⟨0, _⟩ => rfl | ⟨1, _⟩ => rfl

/-! ## The first direction: from the first cloud to the second -/

/-- The squared norms of the first cloud's points. -/
private theorem v1_at (x0 : (⟨S8x4096x3, .f32⟩ : BufTy).Contents (Elt Ideal)) (b : Fin 8) (n : Fin 4096) :
    Read.val_main_v1 (F := Ideal) x0 (ix2 b n) = Cert.Chamfer.sqn x0 b n := by
  rw [Read.val_main_v1_apply, Read.val_main_cst_apply]
  simp only [Read.val_main_v0_apply, idx_v1, Ideal.ofBits_def, Ideal.ofBits_zero_f32, Ideal.mulf_def, zero_add]
  rfl

/-- The squared norms of the second cloud's points. -/
private theorem v4_at (x1 : (⟨S8x4096x3, .f32⟩ : BufTy).Contents (Elt Ideal)) (b : Fin 8) (m : Fin 4096) :
    Read.val_main_v4 (F := Ideal) x1 (ix2 b m) = Cert.Chamfer.sqn x1 b m := by
  rw [Read.val_main_v4_apply, Read.val_main_cst_0_apply]
  simp only [Read.val_main_v3_apply, idx_v4, Ideal.ofBits_def, Ideal.ofBits_zero_f32, Ideal.mulf_def, zero_add]
  rfl

/-- The inner products of a point of the first cloud with a point of the second. -/
private theorem v6_at (x0 x1 : (⟨S8x4096x3, .f32⟩ : BufTy).Contents (Elt Ideal)) (b : Fin 8) (n m : Fin 4096) :
    Read.val_main_v6 (F := Ideal) x0 x1 (ix3 b n m) = Cert.Chamfer.inner x0 x1 b n m := by
  rw [Read.val_main_v6_apply]
  simp only [lidx_v6, ridx_v6]
  rfl

/-- The clamped squared distances. -/
private theorem v14_at (x0 x1 : (⟨S8x4096x3, .f32⟩ : BufTy).Contents (Elt Ideal)) (b : Fin 8) (n m : Fin 4096) :
    Read.val_main_v14 (F := Ideal) x0 x1 (ix3 b n m) = Cert.Chamfer.dist x0 x1 b n m := by
  rw [Read.val_main_v14_apply, Read.val_main_v12_apply, Read.val_main_v9_apply, Read.val_main_v11_apply,
    Read.val_main_v7_apply, Read.val_main_v8_apply, Read.val_main_v2_apply, Read.val_main_v5_apply,
    Read.val_main_v10_apply, Read.val_main_v13_apply, Read.val_main_cst_1_apply, Read.val_main_cst_2_apply,
    idx_v7, idx_v8, idx_v2, idx_v5, v1_at, v4_at, v6_at]
  simp only [Ideal.ofBits_def, Ideal.ofBits_zero_f32, lit_two, Ideal.mulf_def, Ideal.addf_def, Ideal.subf_def,
    Ideal.maximumf_def]
  rfl

/-- The minimum over the second cloud: the nearest-neighbour distance. -/
private theorem v15_at (x0 x1 : (⟨S8x4096x3, .f32⟩ : BufTy).Contents (Elt Ideal)) (b : Fin 8) (n : Fin 4096) :
    Read.val_main_v15 (F := Ideal) x0 x1 (ix2 b n) = Cert.Chamfer.nearest x0 x1 b n := by
  unfold Read.val_main_v15 Read.val_main_cst_3
  rw [minReduce_at]
  simp only [v14_at]
  rfl

/-- The mean over the first cloud's points. -/
private theorem v18_at (x0 x1 : (⟨S8x4096x3, .f32⟩ : BufTy).Contents (Elt Ideal)) (b : Fin 8) :
    Read.val_main_v18 (F := Ideal) x0 x1 (ix1 b)
      = Ideal.div (∑ n : Fin 4096, Cert.Chamfer.nearest x0 x1 b n) ((4096 : ℝ) : EReal) := by
  rw [Read.val_main_v18_apply, Read.val_main_v16_apply, Read.val_main_v17_apply, Read.val_main_cst_4_apply,
    Read.val_main_cst_5_apply]
  simp only [idx_v16, v15_at, Ideal.ofBits_def, Ideal.ofBits_zero_f32, lit_4096, Ideal.hostDivf_def, zero_add]

/-- The mean over the entries: one direction of the distance. -/
private theorem v20_at (x0 x1 : (⟨S8x4096x3, .f32⟩ : BufTy).Contents (Elt Ideal)) (i : S_.Idx) :
    Read.val_main_v20 (F := Ideal) x0 x1 i = Cert.Chamfer.oneway x0 x1 := by
  rw [Read.val_main_v20_apply, Read.val_main_v19_apply, Read.val_main_cst_6_apply, Read.val_main_cst_7_apply, sum_idx1]
  simp only [v18_at, Ideal.ofBits_def, Ideal.ofBits_zero_f32, lit_eight, Ideal.hostDivf_def, zero_add]
  rfl

/-! ## The second direction: from the second cloud to the first -/

/-- The squared norms of the second cloud's points. -/
private theorem v22_at (x1 : (⟨S8x4096x3, .f32⟩ : BufTy).Contents (Elt Ideal)) (b : Fin 8) (n : Fin 4096) :
    Read.val_main_v22 (F := Ideal) x1 (ix2 b n) = Cert.Chamfer.sqn x1 b n := by
  rw [Read.val_main_v22_apply, Read.val_main_cst_8_apply]
  simp only [Read.val_main_v21_apply, idx_v22, Ideal.ofBits_def, Ideal.ofBits_zero_f32, Ideal.mulf_def, zero_add]
  rfl

/-- The squared norms of the first cloud's points. -/
private theorem v25_at (x0 : (⟨S8x4096x3, .f32⟩ : BufTy).Contents (Elt Ideal)) (b : Fin 8) (m : Fin 4096) :
    Read.val_main_v25 (F := Ideal) x0 (ix2 b m) = Cert.Chamfer.sqn x0 b m := by
  rw [Read.val_main_v25_apply, Read.val_main_cst_9_apply]
  simp only [Read.val_main_v24_apply, idx_v25, Ideal.ofBits_def, Ideal.ofBits_zero_f32, Ideal.mulf_def, zero_add]
  rfl

/-- The inner products of a point of the second cloud with a point of the first. -/
private theorem v27_at (x0 x1 : (⟨S8x4096x3, .f32⟩ : BufTy).Contents (Elt Ideal)) (b : Fin 8) (n m : Fin 4096) :
    Read.val_main_v27 (F := Ideal) x0 x1 (ix3 b n m) = Cert.Chamfer.inner x1 x0 b n m := by
  rw [Read.val_main_v27_apply]
  simp only [lidx_v27, ridx_v27]
  rfl

/-- The clamped squared distances. -/
private theorem v35_at (x0 x1 : (⟨S8x4096x3, .f32⟩ : BufTy).Contents (Elt Ideal)) (b : Fin 8) (n m : Fin 4096) :
    Read.val_main_v35 (F := Ideal) x0 x1 (ix3 b n m) = Cert.Chamfer.dist x1 x0 b n m := by
  rw [Read.val_main_v35_apply, Read.val_main_v33_apply, Read.val_main_v30_apply, Read.val_main_v32_apply,
    Read.val_main_v28_apply, Read.val_main_v29_apply, Read.val_main_v23_apply, Read.val_main_v26_apply,
    Read.val_main_v31_apply, Read.val_main_v34_apply, Read.val_main_cst_10_apply, Read.val_main_cst_11_apply,
    idx_v28, idx_v29, idx_v23, idx_v26, v22_at, v25_at, v27_at]
  simp only [Ideal.ofBits_def, Ideal.ofBits_zero_f32, lit_two, Ideal.mulf_def, Ideal.addf_def, Ideal.subf_def,
    Ideal.maximumf_def]
  rfl

/-- The minimum over the first cloud: the nearest-neighbour distance. -/
private theorem v36_at (x0 x1 : (⟨S8x4096x3, .f32⟩ : BufTy).Contents (Elt Ideal)) (b : Fin 8) (n : Fin 4096) :
    Read.val_main_v36 (F := Ideal) x0 x1 (ix2 b n) = Cert.Chamfer.nearest x1 x0 b n := by
  unfold Read.val_main_v36 Read.val_main_cst_12
  rw [minReduce_at]
  simp only [v35_at]
  rfl

/-- The mean over the second cloud's points. -/
private theorem v39_at (x0 x1 : (⟨S8x4096x3, .f32⟩ : BufTy).Contents (Elt Ideal)) (b : Fin 8) :
    Read.val_main_v39 (F := Ideal) x0 x1 (ix1 b)
      = Ideal.div (∑ n : Fin 4096, Cert.Chamfer.nearest x1 x0 b n) ((4096 : ℝ) : EReal) := by
  rw [Read.val_main_v39_apply, Read.val_main_v37_apply, Read.val_main_v38_apply, Read.val_main_cst_13_apply,
    Read.val_main_cst_14_apply]
  simp only [idx_v37, v36_at, Ideal.ofBits_def, Ideal.ofBits_zero_f32, lit_4096, Ideal.hostDivf_def, zero_add]

/-- The mean over the entries: one direction of the distance. -/
private theorem v41_at (x0 x1 : (⟨S8x4096x3, .f32⟩ : BufTy).Contents (Elt Ideal)) (i : S_.Idx) :
    Read.val_main_v41 (F := Ideal) x0 x1 i = Cert.Chamfer.oneway x1 x0 := by
  rw [Read.val_main_v41_apply, Read.val_main_v40_apply, Read.val_main_cst_15_apply, Read.val_main_cst_16_apply, sum_idx1]
  simp only [v39_at, Ideal.ofBits_def, Ideal.ofBits_zero_f32, lit_eight, Ideal.hostDivf_def, zero_add]
  rfl

/-! ## The result -/

/-- The reference's last stage, at Ideal, is the chamfer value of the arguments. -/
theorem result_eq (x0 x1 : (⟨S8x4096x3, .f32⟩ : BufTy).Contents (Elt Ideal)) :
    Cert.ReferenceIdeal.Read.val_main_v42 (F := Ideal) x0 x1 = (fun _ => Cert.Chamfer.chamfer x0 x1) := by
  funext i
  rw [Read.val_main_v42_apply, v20_at, v41_at, Ideal.maximumf_def]
  rfl

end Cert.ReferenceIdeal.RefValue

end
-- ==== Proof.lean ====
/- The proof of `Cert.Claim`.  Both programs compute the symmetric chamfer distance of two batches of point clouds:
   the larger of the two directional means of nearest-neighbour squared distances.  The reference forms both distance
   tensors; the kernel forms one scaled product per batch entry and takes row minima for one direction and column minima
   for the other.  The frames of the two kernel programs are the generated ones; the reference's frame is its generated run
   with the result dropped; no operation was idealized, so there is nothing to preserve; and the two results agree because
   both runs end at the one function `Cert.Chamfer.chamfer` of the arguments (Proof/KernelRun.lean for the kernel,
   Proof/RefValue.lean for the reference), the arguments agreeing by hypothesis. -/
import proofs.«144117_g43800076485249_cont_8to1_b_1262_21_alg».proof.Defs
import proofs.«144117_g43800076485249_cont_8to1_b_1262_21_alg».proof.Proof.Gen.Kernel
import proofs.«144117_g43800076485249_cont_8to1_b_1262_21_alg».proof.Proof.Gen.Kernel.Skeleton
import proofs.«144117_g43800076485249_cont_8to1_b_1262_21_alg».proof.Proof.Gen.Kernel.Launch
import proofs.«144117_g43800076485249_cont_8to1_b_1262_21_alg».proof.Proof.Gen.Kernel.Points
import proofs.«144117_g43800076485249_cont_8to1_b_1262_21_alg».proof.Proof.Gen.Kernel.Frame
import proofs.«144117_g43800076485249_cont_8to1_b_1262_21_alg».proof.Proof.Gen.KernelIdeal
import proofs.«144117_g43800076485249_cont_8to1_b_1262_21_alg».proof.Proof.Gen.KernelIdeal.Skeleton
import proofs.«144117_g43800076485249_cont_8to1_b_1262_21_alg».proof.Proof.Gen.KernelIdeal.Launch
import proofs.«144117_g43800076485249_cont_8to1_b_1262_21_alg».proof.Proof.Gen.KernelIdeal.Points
import proofs.«144117_g43800076485249_cont_8to1_b_1262_21_alg».proof.Proof.Gen.KernelIdeal.Frame
import proofs.«144117_g43800076485249_cont_8to1_b_1262_21_alg».proof.Proof.Gen.ReferenceIdeal
import proofs.«144117_g43800076485249_cont_8to1_b_1262_21_alg».proof.Proof.Gen.Pre_finite_inputs
import proofs.«144117_g43800076485249_cont_8to1_b_1262_21_alg».proof.Proof.Gen.ReferenceIdeal.Run
import proofs.«144117_g43800076485249_cont_8to1_b_1262_21_alg».proof.Proof.Gen.ReferenceIdeal.Read
import proofs.«144117_g43800076485249_cont_8to1_b_1262_21_alg».proof.Proof.KernelRun
import proofs.«144117_g43800076485249_cont_8to1_b_1262_21_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at the chamfer value of their arguments, and the arguments agree. -/
theorem algebraic : Cert.algebraic_KernelIdeal_ReferenceIdeal := by
  intro m ρ m' ρ' hpre hagree
  refine ⟨fun c => fun _ => Cert.Chamfer.chamfer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
